-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  let main_c_10 : IVec S_ 32 := constantI S_ 32 100000#32
  let main_v28 : IVec S2x1600000 32 := broadcastInDim S2x1600000 ![] bcast_S_S2x1600000 main_c_10
  let main_v29 : IVec S2x1600000 1 := cmpi .slt main_arg1 main_v28
  let main_c_11 : IVec S_ 1 := constantI S_ 1 1#1
  let main_v30 : IVec S_ 1 := (fun x v => Host.reduce IntOp.andi x v reducesTo_S2x1600000_S_d0_1 h_S_) main_v29 main_c_11
  let main_v31 : IVec S_ 1 := andi main_v27 main_v30
  main_v31

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1 : Shape := ⟨1, ![1]⟩
abbrev S1x1 : Shape := ⟨2, ![1, 1]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 111
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1, .i32⟩
  | .hbm, ⟨56, _⟩ => ⟨S_, .i32⟩
  | .hbm, ⟨57, _⟩ => ⟨S1700000x1, .i32⟩
  | .hbm, ⟨58, _⟩ => ⟨S1700000x1, .i1⟩
  | .hbm, ⟨59, _⟩ => ⟨S1x1, .i32⟩
  | .hbm, ⟨60, _⟩ => ⟨S1700000x1, .i32⟩
  | .hbm, ⟨61, _⟩ => ⟨S1700000x1, .i1⟩
  | .hbm, ⟨62, _⟩ => ⟨S1700000x1, .i1⟩
  | .hbm, ⟨63, _⟩ => ⟨S_, .i1⟩
  | .hbm, ⟨64, _⟩ => ⟨S1700000, .i1⟩
  | .hbm, ⟨65, _⟩ => ⟨S1700000x64, .f32⟩
  | .hbm, ⟨66, _⟩ => ⟨S1700000x64, .i1⟩
  | .hbm, ⟨67, _⟩ => ⟨S_, .f32⟩
  | .hbm, ⟨68, _⟩ => ⟨S1700000x64, .f32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x32, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1, .i32⟩
  | .hbm, ⟨88, _⟩ => ⟨S_, .i32⟩
  | .hbm, ⟨89, _⟩ => ⟨S1700000x1, .i32⟩
  | .hbm, ⟨90, _⟩ => ⟨S1700000x1, .i1⟩
  | .hbm, ⟨91, _⟩ => ⟨S1x1, .i32⟩
  | .hbm, ⟨92, _⟩ => ⟨S1700000x1, .i32⟩
  | .hbm, ⟨93, _⟩ => ⟨S1700000x1, .i1⟩
  | .hbm, ⟨94, _⟩ => ⟨S1700000x1, .i1⟩
  | .hbm, ⟨95, _⟩ => ⟨S_, .i1⟩
  | .hbm, ⟨96, _⟩ => ⟨S1700000, .i1⟩
  | .hbm, ⟨97, _⟩ => ⟨S1700000x32, .f32⟩
  | .hbm, ⟨98, _⟩ => ⟨S1700000x32, .i1⟩
  | .hbm, ⟨99, _⟩ => ⟨S_, .f32⟩
  | .hbm, ⟨100, _⟩ => ⟨S1700000x32, .f32⟩
  | .hbm, ⟨101, _⟩ => ⟨S1700000x32, .f32⟩
  | .hbm, ⟨102, _⟩ => ⟨S1700000x1, .f32⟩
  | .hbm, ⟨103, _⟩ => ⟨S1700000x32, .f32⟩
  | .hbm, ⟨104, _⟩ => ⟨S1700000x32, .f32⟩
  | .hbm, ⟨105, _⟩ => ⟨S_, .f32⟩
  | .hbm, ⟨106, _⟩ => ⟨S100000x32, .f32⟩
  | .hbm, ⟨107, _⟩ => ⟨S1700000x1, .i32⟩
  | .hbm, ⟨108, _⟩ => ⟨S100000x32, .f32⟩
  | .hbm, ⟨109, _⟩ => ⟨S1x32, .f32⟩
  | .hbm, ⟨110, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_7 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Stages.lean ====
/-
  A two-layer graph convolution over n = 100000 nodes and 1600000 edges, with a self loop added per node.
  Every intermediate of the reference is named here once, as a function of the argument arrays:

    src, dst      the 1700000 source and destination node ids: the edge list's two rows, each followed by 0 … n-1;
    wrapIdx v     an index read NumPy-style: v + n where v < 0, else v;
    invSqrtDeg    d(k)^(-1/2) where d(k) > 0, else 0, for d(k) the number of entries of dst equal to k;
    edgeNorm      invSqrtDeg at the source times invSqrtDeg at the destination, per edge;
    aggregate h   row k is the sum, over the edges e with destination k, of edgeNorm(e) · h[src(e), :];
    hidden        max (aggregate (x · W1) + b1, 0);
    output        aggregate (hidden · W2) + b2.

  The reference's result IS `output` of its arguments, by unfolding (`res_out0_eq`).
-/
import proofs.«407844_j89343909692103_2_alg».proof.Proof.ReferenceRun

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

/-- Row `r` of the edge list (r = 0 the sources, r = 1 the destinations) as a vector of 1600000 node ids. -/
def edgeRow0 (ei : IVec S2x1600000 32) : IVec S1600000 32 :=
  shapeCast _ (extractStridedSlice S1x1600000 ![0, 0] ei slices_S2x1600000_S1x1600000_0_0) shapeCasts_S1x1600000_S1600000
def edgeRow1 (ei : IVec S2x1600000 32) : IVec S1600000 32 :=
  shapeCast _ (extractStridedSlice S1x1600000 ![1, 0] ei slices_S2x1600000_S1x1600000_1_0) shapeCasts_S1x1600000_S1600000

/-- The sources: the edge list's first row, then one self loop per node. -/
def src (ei : IVec S2x1600000 32) : IVec S1700000 32 :=
  concatenate S1700000 0 [⟨S1600000, edgeRow0 ei⟩, ⟨S100000, iotaInDim S100000 32 0⟩] concatenates_S1600000_S100000_S1700000_d0
/-- The destinations: the edge list's second row, then one self loop per node. -/
def dst (ei : IVec S2x1600000 32) : IVec S1700000 32 :=
  concatenate S1700000 0 [⟨S1600000, edgeRow1 ei⟩, ⟨S100000, iotaInDim S100000 32 0⟩] concatenates_S1600000_S100000_S1700000_d0

/-- An index read NumPy-style against an axis of extent 100000: `v + 100000` where `v < 0`, else `v`. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A vector of indices as the one-column index array a gather or scatter takes. -/
abbrev col1 (v : IVec S1700000 32) : IVec S1700000x1 32 :=
  broadcastInDim S1700000x1 ![0] bcast_S1700000_S1700000x1_0 v

/-- Node `k`'s in-degree, self loop included: the number of entries of `dst` equal to `k`. -/
def degree (ei : IVec S2x1600000 32) : FVec F S100000 .f32 :=
  Host.scatterAdd scatter_S100000_S1700000x1_S1700000_n_0_0_1
    (broadcastInDim S100000 ![] bcast_S_S100000 (constant S_ .f32 0x00000000#32))
    (col1 (dst ei))
    (broadcastInDim S1700000 ![] bcast_S_S1700000 (constant S_ .f32 0x3F800000#32))

/-- `d^(-1/2)` where the degree `d` is positive, else `0`. -/
def invSqrtDeg (ei : IVec S2x1600000 32) : FVec F S100000 .f32 :=
  select (cmpf (F := F) .ogt (degree (F := F) ei) (broadcastInDim S100000 ![] bcast_S_S100000 (constant S_ .f32 0x00000000#32)))
    (Host.rsqrt (degree (F := F) ei))
    (broadcastInDim S100000 ![] bcast_S_S100000 (id (constant S_ .f32 0x00000000#32)))

/-- Per edge: `invSqrtDeg` at its source times `invSqrtDeg` at its destination. -/
def edgeNorm (ei : IVec S2x1600000 32) : FVec F S1700000 .f32 :=
  mulf (Host.gather gather_S100000_S1700000x1_S1700000_n_0_n_n_0_1_1 (invSqrtDeg (F := F) ei) (col1 (wrapIdx (src ei))))
    (Host.gather gather_S100000_S1700000x1_S1700000_n_0_n_n_0_1_1 (invSqrtDeg (F := F) ei) (col1 (wrapIdx (dst ei))))

/-- Given, per edge `e`, a destination `d e`, a weight `nrm e` and 64 features `g e`: row `k` of the result is the sum
    over the edges with destination `k` of `nrm e · g e` (an edge whose destination is outside the table adds nothing). -/
def scatterScaled64 (d : IVec S1700000 32) (nrm : FVec F S1700000 .f32) (g : FVec F S1700000x64 .f32) : FVec F S100000x64 .f32 :=
  Host.scatterAdd scatter_S100000x64_S1700000x1_S1700000x64_1_0_0_1
    (broadcastInDim S100000x64 ![] bcast_S_S100000x64 (constant S_ .f32 0x00000000#32))
    (col1 d)
    (mulf g (broadcastInDim S1700000x64 ![0, 1] bcast_S1700000x1_S1700000x64_0_1
      (broadcastInDim S1700000x1 ![0] bcast_S1700000_S1700000x1_0 nrm)))
/-- The same at 32 features. -/
def scatterScaled32 (d : IVec S1700000 32) (nrm : FVec F S1700000 .f32) (g : FVec F S1700000x32 .f32) : FVec F S100000x32 .f32 :=
  Host.scatterAdd scatter_S100000x32_S1700000x1_S1700000x32_1_0_0_1
    (broadcastInDim S100000x32 ![] bcast_S_S100000x32 (constant S_ .f32 0x00000000#32))
    (col1 d)
    (mulf g (broadcastInDim S1700000x32 ![0, 1] bcast_S1700000x1_S1700000x32_0_1
      (broadcastInDim S1700000x1 ![0] bcast_S1700000_S1700000x1_0 nrm)))

/-- The rows of `h` at a vector of ids, each id read NumPy-style and then clamped into the table. -/
def rowsAt64 (h : FVec F S100000x64 .f32) (v : IVec S1700000 32) : FVec F S1700000x64 .f32 :=
  Host.gather gather_S100000x64_S1700000x1_S1700000x64_1_0_n_n_0_1_164 h (col1 (wrapIdx v))
def rowsAt32 (h : FVec F S100000x32 .f32) (v : IVec S1700000 32) : FVec F S1700000x32 .f32 :=
  Host.gather gather_S100000x32_S1700000x1_S1700000x32_1_0_n_n_0_1_132 h (col1 (wrapIdx v))

/-- Sum aggregation over incoming edges of the normalised source rows. -/
def aggregate64 (ei : IVec S2x1600000 32) (h : FVec F S100000x64 .f32) : FVec F S100000x64 .f32 :=
  scatterScaled64 (dst ei) (edgeNorm (F := F) ei) (rowsAt64 h (src ei))
def aggregate32 (ei : IVec S2x1600000 32) (h : FVec F S100000x32 .f32) : FVec F S100000x32 .f32 :=
  scatterScaled32 (dst ei) (edgeNorm (F := F) ei) (rowsAt32 h (src ei))

/-- A one-row array added to every row. -/
def addRow64 (a : FVec F S100000x64 .f32) (r : FVec F S1x64 .f32) : FVec F S100000x64 .f32 :=
  addf a (broadcastInDim S100000x64 ![0, 1] bcast_S1x64_S100000x64_0_1 r)
def addRow32 (a : FVec F S100000x32 .f32) (r : FVec F S1x32 .f32) : FVec F S100000x32 .f32 :=
  addf a (broadcastInDim S100000x32 ![0, 1] bcast_S1x32_S100000x32_0_1 r)

/-- A bias vector as a one-row array. -/
def asRow64 (b : FVec F S64 .f32) : FVec F S1x64 .f32 := broadcastInDim S1x64 ![1] bcast_S64_S1x64_1 b
def asRow32 (b : FVec F S32 .f32) : FVec F S1x32 .f32 := broadcastInDim S1x32 ![1] bcast_S32_S1x32_1 b

/-- A bias vector added to every row. -/
def addBias64 (a : FVec F S100000x64 .f32) (b : FVec F S64 .f32) : FVec F S100000x64 .f32 := addRow64 a (asRow64 b)
def addBias32 (a : FVec F S100000x32 .f32) (b : FVec F S32 .f32) : FVec F S100000x32 .f32 := addRow32 a (asRow32 b)

/-- `max (·, 0)`, entry by entry. -/
def relu64 (a : FVec F S100000x64 .f32) : FVec F S100000x64 .f32 :=
  maximumf a (broadcastInDim S100000x64 ![] bcast_S_S100000x64 (constant S_ .f32 0x00000000#32))

/-- The two dense products. -/
def dense1 (x : FVec F S100000x64 .f32) (W1 : FVec F S64x64 .f32) : FVec F S100000x64 .f32 :=
  Host.dotGeneral dot_S100000x64_S64x64_S100000x64_1_0_0_1_n_n none x W1
def dense2 (h : FVec F S100000x64 .f32) (W2 : FVec F S64x32 .f32) : FVec F S100000x32 .f32 :=
  Host.dotGeneral dot_S100000x64_S64x32_S100000x32_1_0_0_1_n_n none h W2

/-- The first layer: `max (aggregate (x · W1) + b1, 0)`. -/
def hidden (x : FVec F S100000x64 .f32) (ei : IVec S2x1600000 32) (W1 : FVec F S64x64 .f32) (b1 : FVec F S64 .f32) :
    FVec F S100000x64 .f32 :=
  relu64 (addBias64 (aggregate64 ei (dense1 x W1)) b1)

/-- The network's result: `aggregate (hidden · W2) + b2`. -/
def output (x : FVec F S100000x64 .f32) (ei : IVec S2x1600000 32) (W1 : FVec F S64x64 .f32) (b1 : FVec F S64 .f32)
    (W2 : FVec F S64x32 .f32) (b2 : FVec F S32 .f32) : FVec F S100000x32 .f32 :=
  addBias32 (aggregate32 ei (dense2 (hidden x ei W1 b1) W2)) b2

set_option maxRecDepth 8192 in
/-- The reference's result is `output` of its argument arrays: the run's composed term, read stage by stage. -/
theorem res_out0_eq (m : (ℓ : Loc nD τ sig) → Buf (Elt F) ℓ) (c : Dev nD) :
    Cert.ReferenceIdeal.RunValue.res_out0 m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show Cert.ReferenceIdeal.RunValue.res_main_v94 m c = _
  unfold Cert.ReferenceIdeal.RunValue.res_main_v94 output addBias32 addRow32 asRow32 aggregate32 scatterScaled32 rowsAt32 dense2 hidden
    relu64 addBias64 addRow64 asRow64 aggregate64 scatterScaled64 rowsAt64 dense1 edgeNorm invSqrtDeg degree wrapIdx src dst edgeRow0 edgeRow1
  rfl

end Cert.Stages

end
-- ==== Proof.TakeRows.lean ====
/-
  Reading rows of a table at a vector of node ids, the way the kernel's program does it: the id is read NumPy-style
  (`wrapIdx`), the row is fetched at that index clamped into the table, and the fetched row is KEPT where the wrapped id
  lies in [0, 99999] and replaced by a fill value elsewhere. Where every id of the vector is a node id (`InRange`), the
  test always passes, so this is the plain clamped fetch the reference's program does (`Cert.Stages.rowsAt64`).
-/
import proofs.«407844_j89343909692103_2_alg».proof.Proof.Gen.KernelIdeal
import proofs.«407844_j89343909692103_2_alg».proof.Proof.Stages
import Idealize.ShloMosaic.Lib.StableHlo.Predicate
import Idealize.ShloMosaic.Lib.ValueIdx

noncomputable section

namespace Cert.TakeRows

open Cert.KernelIdeal Cert.KernelIdeal.Gen Idealize.ShloMosaic Idealize.ShloMosaic.TcCoe

variable {F : FTy → Type} [FloatOps F]

/-- Every entry of the vector is a node id: as an unsigned word it is below 100000 (so as a signed word it lies in
    [0, 99999]). -/
def InRange (v : IVec S1700000 32) : Prop := ∀ k : S1700000.Idx, (v k).toNat < 100000

/-- The ids read NumPy-style, as the one-column index array of a gather. -/
def wrappedCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Per id: is the wrapped id inside [0, 99999]? -/
def inTable (v : IVec S1700000 32) : IVec S1700000 1 :=
  Host.reduce IntOp.andi
    (andi (cmpi .sge (wrappedCol v) (broadcastInDim S1700000x1 ![] bcast_S_S1700000x1 (constantI S_ 32 0#32)))
      (cmpi .sle (wrappedCol v) (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- The kernel program's row fetch at 64 columns: the clamped fetch where the id is in the table, a fill value elsewhere. -/
def takeRows64 (h : FVec F S100000x64 .f32) (v : IVec S1700000 32) : FVec F S1700000x64 .f32 :=
  select (broadcastInDim S1700000x64 ![0] bcast_S1700000_S1700000x64_0 (inTable v))
    (Host.gather gather_S100000x64_S1700000x1_S1700000x64_1_0_n_n_0_1_164 h (wrappedCol v))
    (broadcastInDim S1700000x64 ![] bcast_S_S1700000x64 (constant S_ .f32 0x7FC00000#32))
/-- The same at 32 columns. -/
def takeRows32 (h : FVec F S100000x32 .f32) (v : IVec S1700000 32) : FVec F S1700000x32 .f32 :=
  select (broadcastInDim S1700000x32 ![0] bcast_S1700000_S1700000x32_0 (inTable v))
    (Host.gather gather_S100000x32_S1700000x1_S1700000x32_1_0_n_n_0_1_132 h (wrappedCol v))
    (broadcastInDim S1700000x32 ![] bcast_S_S1700000x32 (constant S_ .f32 0x7FC00000#32))

/-! ## Words: a node id read NumPy-style, and tested against the table's range -/

/-- A word below 100000 is not negative as a signed word, so reading it NumPy-style leaves it as it is. -/
theorem wrap_word (a : BitVec 32) (ha : a.toNat < 100000) :
    Scalar.select (IntOp.cmpi .slt a 0#32) (IntOp.addi a 100000#32) a = a := by
  have hn : ¬ IntOp.cmpi .slt a 0#32 = 1#1 := by
    rw [StableHlo.Predicate.slt_iff_toNat (by omega) (by decide)]
    show ¬ a.toNat < 0
    omega
  exact if_neg hn

/-- A word below 100000 passes both range tests, 0 ≤ a and a ≤ 99999 as signed words. -/
theorem inTable_word (a : BitVec 32) (ha : a.toNat < 100000) :
    IntOp.andi (IntOp.cmpi .sge a 0#32) (IntOp.cmpi .sle a 99999#32) = 1#1 := by
  have h0 : IntOp.cmpi .sge a 0#32 = 1#1 :=
    (StableHlo.Predicate.sge_iff_toNat (by omega) (by decide)).2 (by show 0 ≤ a.toNat; omega)
  have h1 : IntOp.cmpi .sle a 99999#32 = 1#1 :=
    (StableHlo.Predicate.sle_iff_toNat (by omega) (by decide)).2 (by show a.toNat ≤ 99999; omega)
  rw [h0, h1]; rfl

/-- A fold by `and` from 1 over one-bit words that are all 1 is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, ih (fun i hi => hf i (Finset.mem_cons_of_mem hi)), hf a (Finset.mem_cons_self a S)]
    rfl

/-! ## The vectors at an index -/

/-- Where every id is a node id, the NumPy-style reading of the vector is the vector, entry by entry. -/
theorem wrap_apply (v : IVec S1700000 32) (hv : InRange v) (k : S1700000.Idx) :
    (select (cmpi .slt v (broadcastInDim S1700000 ![] bcast_S_S1700000 (constantI S_ 32 0#32)))
      (addi v (broadcastInDim S1700000 ![] bcast_S_S1700000 (constantI S_ 32 100000#32))) v) k = v k :=
  wrap_word (v k) (hv k)

/-- Every entry of the one-column index array is an entry of the vector. -/
theorem wrappedCol_apply (v : IVec S1700000 32) (hv : InRange v) (i : S1700000x1.Idx) :
    ∃ k : S1700000.Idx, wrappedCol v i = v k :=
  ⟨_, wrap_apply v hv _⟩

/-- The range test passes at every entry of the column. -/
theorem mask_apply (v : IVec S1700000 32) (hv : InRange v) (i : S1700000x1.Idx) :
    (andi (cmpi .sge (wrappedCol v) (broadcastInDim S1700000x1 ![] bcast_S_S1700000x1 (constantI S_ 32 0#32)))
      (cmpi .sle (wrappedCol v) (broadcastInDim S1700000x1 ![0, 1] bcast_S1x1_S1700000x1_0_1
        (broadcastInDim S1x1 ![1] bcast_S1_S1x1_1 (constantI S1 32 99999#32))))) i = 1#1 := by
  obtain ⟨k, hk⟩ := wrappedCol_apply v hv i
  show IntOp.andi (IntOp.cmpi .sge (wrappedCol v i) 0#32) (IntOp.cmpi .sle (wrappedCol v i) 99999#32) = 1#1
  rw [hk]
  exact inTable_word (v k) (hv k)

/-- So the per-id test, the `and` of the column's one entry per row from 1, is 1 at every id. -/
theorem inTable_one (v : IVec S1700000 32) (hv : InRange v) (k : S1700000.Idx) : inTable v k = 1#1 := by
  unfold inTable
  rw [Host.reduce_eq_fold]
  exact fold_andi_one _ _ (fun i _ => mask_apply v hv i)

/-- Where every id is a node id the test always passes: the kernel program's fetch is the plain clamped fetch. -/
theorem takeRows64_eq (h : FVec F S100000x64 .f32) (v : IVec S1700000 32) (hv : InRange v) :
    takeRows64 h v = Cert.Stages.rowsAt64 h v := by
  funext i
  have hc : broadcastInDim S1700000x64 ![0] bcast_S1700000_S1700000x64_0 (inTable v) i = 1#1 := inTable_one v hv _
  unfold takeRows64
  rw [ValueIdx.select_apply, hc, ValueIdx.select_one]
  rfl
theorem takeRows32_eq (h : FVec F S100000x32 .f32) (v : IVec S1700000 32) (hv : InRange v) :
    takeRows32 h v = Cert.Stages.rowsAt32 h v := by
  funext i
  have hc : broadcastInDim S1700000x32 ![0] bcast_S1700000_S1700000x32_0 (inTable v) i = 1#1 := inTable_one v hv _
  unfold takeRows32
  rw [ValueIdx.select_apply, hc, ValueIdx.select_one]
  rfl

end Cert.TakeRows

end
-- ==== Proof.DenseAt.lean ====
/-
  The two dense products read at an index: entry (p, q) of x · W is the sum over k of x[p, k] · W[k, q].
-/
import proofs.«407844_j89343909692103_2_alg».proof.Proof.Stages
import Idealize.ShloMosaic.Lib.ValueIdx
import Idealize.ShloMosaic.PureOps.Ideal.Laws

set_option maxRecDepth 16384

noncomputable section

namespace Cert.DenseAt

open Cert.ReferenceIdeal Cert.ReferenceIdeal.Gen
open Idealize.ShloMosaic Idealize.ShloMosaic.TcCoe Idealize.ShloMosaic.ValueIdx

/-! ## The operand indices of the two products, axis by axis

Both products contract the left operand's axis 1 with the right operand's axis 0 and have no batch axis: at result
index j and contraction index k the left operand is read at (j 0, k) and the right operand at (k, j 1). -/

theorem lhs1_0 (j : S100000x64.Idx) (k : dot_S100000x64_S64x64_S100000x64_1_0_0_1_n_n.contr.Idx) :
    (dot_S100000x64_S64x64_S100000x64_1_0_0_1_n_n.lhsIdx j k 0).val = (j 0).val := rfl
theorem lhs1_1 (j : S100000x64.Idx) (k : dot_S100000x64_S64x64_S100000x64_1_0_0_1_n_n.contr.Idx) :
    (dot_S100000x64_S64x64_S100000x64_1_0_0_1_n_n.lhsIdx j k 1).val = (k ⟨0, by decide⟩).val :=
  dot_S100000x64_S64x64_S100000x64_1_0_0_1_n_n.lhsIdx_val_of_single rfl j k
theorem rhs1_0 (j : S100000x64.Idx) (k : dot_S100000x64_S64x64_S100000x64_1_0_0_1_n_n.contr.Idx) :
    (dot_S100000x64_S64x64_S100000x64_1_0_0_1_n_n.rhsIdx j k 0).val = (k ⟨0, by decide⟩).val :=
  dot_S100000x64_S64x64_S100000x64_1_0_0_1_n_n.rhsIdx_val_of_single rfl j k
theorem rhs1_1 (j : S100000x64.Idx) (k : dot_S100000x64_S64x64_S100000x64_1_0_0_1_n_n.contr.Idx) :
    (dot_S100000x64_S64x64_S100000x64_1_0_0_1_n_n.rhsIdx j k 1).val = (j 1).val := rfl

theorem lhs2_0 (j : S100000x32.Idx) (k : dot_S100000x64_S64x32_S100000x32_1_0_0_1_n_n.contr.Idx) :
    (dot_S100000x64_S64x32_S100000x32_1_0_0_1_n_n.lhsIdx j k 0).val = (j 0).val := rfl
theorem lhs2_1 (j : S100000x32.Idx) (k : dot_S100000x64_S64x32_S100000x32_1_0_0_1_n_n.contr.Idx) :
    (dot_S100000x64_S64x32_S100000x32_1_0_0_1_n_n.lhsIdx j k 1).val = (k ⟨0, by decide⟩).val :=
  dot_S100000x64_S64x32_S100000x32_1_0_0_1_n_n.lhsIdx_val_of_single rfl j k
theorem rhs2_0 (j : S100000x32.Idx) (k : dot_S100000x64_S64x32_S100000x32_1_0_0_1_n_n.contr.Idx) :
    (dot_S100000x64_S64x32_S100000x32_1_0_0_1_n_n.rhsIdx j k 0).val = (k ⟨0, by decide⟩).val :=
  dot_S100000x64_S64x32_S100000x32_1_0_0_1_n_n.rhsIdx_val_of_single rfl j k
theorem rhs2_1 (j : S100000x32.Idx) (k : dot_S100000x64_S64x32_S100000x32_1_0_0_1_n_n.contr.Idx) :
    (dot_S100000x64_S64x32_S100000x32_1_0_0_1_n_n.rhsIdx j k 1).val = (j 1).val := rfl

/-- Entry (p, q) of the first dense product. -/
theorem dense1_apply (x : FVec Ideal S100000x64 .f32) (W : FVec Ideal S64x64 .f32) (p : Fin 100000) (q : Fin 64) :
    Cert.Stages.dense1 (F := Ideal) x W (ix2 p q) = ∑ k : Fin 64, (x (ix2 p k) : EReal) * (W (ix2 k q) : EReal) := by
  unfold Cert.Stages.dense1
  simp only [Host.dotGeneral]
  rw [Ideal.dotGeneral_apply,
    ← Equiv.sum_comp (contrEquiv1 dot_S100000x64_S64x64_S100000x64_1_0_0_1_n_n 64 rfl rfl).symm]
  refine Finset.sum_congr rfl (fun k _ => ?_)
  -- the left operand is read at (p, k) …
  have hl : dot_S100000x64_S64x64_S100000x64_1_0_0_1_n_n.lhsIdx (ix2 p q)
      ((contrEquiv1 dot_S100000x64_S64x64_S100000x64_1_0_0_1_n_n 64 rfl rfl).symm k) = ix2 p k := by
    funext a
    match a with
    | ⟨0, _⟩ => exact Fin.ext (lhs1_0 _ _)
    | ⟨1, _⟩ => exact Fin.ext ((lhs1_1 _ _).trans (contrEquiv1_symm_val _ 64 rfl rfl k))
  -- … and the right operand at (k, q)
  have hr : dot_S100000x64_S64x64_S100000x64_1_0_0_1_n_n.rhsIdx (ix2 p q)
      ((contrEquiv1 dot_S100000x64_S64x64_S100000x64_1_0_0_1_n_n 64 rfl rfl).symm k) = ix2 k q := by
    funext a
    match a with
    | ⟨0, _⟩ => exact Fin.ext ((rhs1_0 _ _).trans (contrEquiv1_symm_val _ 64 rfl rfl k))
    | ⟨1, _⟩ => exact Fin.ext (rhs1_1 _ _)
  rw [hl, hr]

/-- Entry (p, q) of the second dense product. -/
theorem dense2_apply (h : FVec Ideal S100000x64 .f32) (W : FVec Ideal S64x32 .f32) (p : Fin 100000) (q : Fin 32) :
    Cert.Stages.dense2 (F := Ideal) h W (ix2 p q) = ∑ k : Fin 64, (h (ix2 p k) : EReal) * (W (ix2 k q) : EReal) := by
  unfold Cert.Stages.dense2
  simp only [Host.dotGeneral]
  rw [Ideal.dotGeneral_apply,
    ← Equiv.sum_comp (contrEquiv1 dot_S100000x64_S64x32_S100000x32_1_0_0_1_n_n 64 rfl rfl).symm]
  refine Finset.sum_congr rfl (fun k _ => ?_)
  -- the left operand is read at (p, k) …
  have hl : dot_S100000x64_S64x32_S100000x32_1_0_0_1_n_n.lhsIdx (ix2 p q)
      ((contrEquiv1 dot_S100000x64_S64x32_S100000x32_1_0_0_1_n_n 64 rfl rfl).symm k) = ix2 p k := by
    funext a
    match a with
    | ⟨0, _⟩ => exact Fin.ext (lhs2_0 _ _)
    | ⟨1, _⟩ => exact Fin.ext ((lhs2_1 _ _).trans (contrEquiv1_symm_val _ 64 rfl rfl k))
  -- … and the right operand at (k, q)
  have hr : dot_S100000x64_S64x32_S100000x32_1_0_0_1_n_n.rhsIdx (ix2 p q)
      ((contrEquiv1 dot_S100000x64_S64x32_S100000x32_1_0_0_1_n_n 64 rfl rfl).symm k) = ix2 k q := by
    funext a
    match a with
    | ⟨0, _⟩ => exact Fin.ext ((rhs2_0 _ _).trans (contrEquiv1_symm_val _ 64 rfl rfl k))
    | ⟨1, _⟩ => exact Fin.ext (rhs2_1 _ _)
  rw [hl, hr]

end Cert.DenseAt

end
-- ==== Proof.RegionMatmul0.lean ====
/-
  The first kernel region: twenty row blocks of 5000 rows. At each block the body multiplies the block of x by the whole
  of W1 (both first re-formatted, which is the identity over the extended reals) into a zero accumulator and stores the
  product as the block of the result. So after the region the result array is, row by row, the matrix product of the
  arrays the region found: entry (i, j) is the sum over k of x[i, k] · W1[k, j], which is what a dense product of the
  whole arrays is.
-/
import proofs.«407844_j89343909692103_2_alg».proof.Proof.Gen.KernelIdeal.Frame
import proofs.«407844_j89343909692103_2_alg».proof.Proof.Stages
import proofs.«407844_j89343909692103_2_alg».proof.Proof.DenseAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RegionMatmul0

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's product of a block at an index -/

theorem blkL0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem blkL1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem blkR0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem blkR1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of what the body stores is the sum over k of (block of x)[p, k] · w[k, q]: the two changes of
    format are the identity over the extended reals and the accumulator starts at zero. -/
theorem pay_apply (v0 : Vec Ideal S5000x64 .f32) (v2 : Vec Ideal S64x64 .f32) (p : Fin 5000) (q : Fin 64) :
    k0_pay1 (F := Ideal) v0 v2 (ix2 p q) = ∑ k : Fin 64, v0 (ix2 p k) * v2 (ix2 k q) := by
  unfold k0_pay1
  refine (Ideal.matmul_constant_zero_apply dot_S5000x64_S64x64_S5000x64_1_0_0_1_n_n none _ _ _).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact blkL0 _ _
    | ⟨1, _⟩ => exact (blkL1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (blkR0 _ _).trans hk
    | ⟨1, _⟩ => exact blkR1 _ _)
  rw [el, er]
  rfl

/-! ## The region's windows on the grid -/

theorem zeroOff : (![0, 0] : Fin 2 → Nat) = fun _ => 0 := funext fun a => by fin_cases a <;> rfl

/-- At every point the block of x moves with the block of the result along the rows and sits at column block 0; the
    block of w is the whole of w; the result's row block index is below 20. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-! ## One block of the result -/

/-- If a block of x holds rows b·5000 … b·5000 + 4999 of X and the block of w holds W, then entry j of what the body
    stores is entry i of the dense product X · W, for i the row b·5000 + j₀ and the column j₁. -/
theorem block_prod (X : FVec Ideal Cert.ReferenceIdeal.S100000x64 .f32) (Wt : FVec Ideal Cert.ReferenceIdeal.S64x64 .f32)
    (x0 : Vec Ideal S5000x64 .f32) (x1 : Vec Ideal S64x64 .f32) (b : Nat)
    (h0 : ∀ (y : S5000x64.Idx) (i' : S100000x64.Idx), (i' 0).val = b * 5000 + (y 0).val → (i' 1).val = (y 1).val → x0 y = X i')
    (h1 : ∀ y : S64x64.Idx, x1 y = Wt y)
    (j : S5000x64.Idx) (i : S100000x64.Idx) (hi0 : (i 0).val = b * 5000 + (j 0).val) (hi1 : (i 1).val = (j 1).val) :
    k0_pay1 (F := Ideal) x0 x1 j = Cert.Stages.dense1 (F := Ideal) X Wt i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay_apply, Cert.DenseAt.dense1_apply]
  refine Finset.sum_congr rfl fun k _ => ?_
  rw [h0 (ix2 p k) (ix2 r k) hi0 rfl, h1]

/-! ## From the blocks to the array -/

/-- What point t writes back is block t of the dense product of the arrays the region found. -/
theorem flushed_eq (c : Dev nD) (t : Fin cfg0.N) :
    (dat0 (V3 m ρ) c).flushed 2 t = ((cfg0.win 2).blk t).view.read (Elt Ideal)
      (Cert.Stages.dense1 (F := Ideal) (W3 (F := Ideal) m ρ c (Proc.devRef .tc main_arg0)) (W3 (F := Ideal) m ρ c (Proc.devRef .tc main_arg2))) := by
  show (cfg0.win 2).cut (grid0.coords t) ((dat0 (V3 m ρ) c).after 2 t) = _
  rw [after0_2]
  unfold out0_2
  rw [View.canon_unit_zero zeroOff]
  simp only [View.ld_unit_zero (S := S5000x64) zeroOff, View.ld_unit_zero (S := S64x64) zeroOff]
  obtain ⟨e0, e1, e2, e3, e4, e5⟩ := idx_facts t
  funext j
  show k0_pay1 (F := Ideal) (iblk0 (V3 m ρ) c 0 t) (iblk0 (V3 m ρ) c 1 t) j
    = Cert.Stages.dense1 (F := Ideal) (W3 (F := Ideal) m ρ c (Proc.devRef .tc main_arg0)) (W3 (F := Ideal) m ρ c (Proc.devRef .tc main_arg2))
        (((cfg0.win 2).blk t).view.emb j)
  refine block_prod (W3 (F := Ideal) m ρ c (Proc.devRef .tc main_arg0)) (W3 (F := Ideal) m ρ c (Proc.devRef .tc main_arg2))
    (iblk0 (V3 m ρ) c 0 t) (iblk0 (V3 m ρ) c 1 t) (win0_2.index t (0 : Fin 2)) ?_ ?_ j (((cfg0.win 2).blk t).view.emb j) ?_ ?_
  · intro y i' h0 h1
    show V3 m ρ c main_arg0 (((cfg0.win 0).blk t).view.emb y) = V3 m ρ c main_arg0 i'
    refine congrArg (V3 m ρ c main_arg0) (funext fun a => Fin.ext ?_)
    match a with
    | ⟨0, _⟩ => show win0_0.index t (0 : Fin 2) * 5000 + 1 * (y 0).val = (i' 0).val; omega
    | ⟨1, _⟩ => show win0_0.index t (1 : Fin 2) * 64 + 1 * (y 1).val = (i' 1).val; omega
  · intro y
    show V3 m ρ c main_arg2 (((cfg0.win 1).blk t).view.emb y) = V3 m ρ c main_arg2 y
    refine congrArg (V3 m ρ c main_arg2) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · show win0_2.index t (0 : Fin 2) * 5000 + 1 * (j 0).val = win0_2.index t (0 : Fin 2) * 5000 + (j 0).val; omega
  · show win0_2.index t (1 : Fin 2) * 64 + 1 * (j 1).val = (j 1).val; omega

/-- An index of the result is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the result is in the block of the point whose row block index is r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its result array is the dense product of the two arrays it read, as the region found them. -/
theorem value (c : Dev nD) :
    (W4 (F := Ideal) m ρ c (Proc.devRef .tc main_v30) : FVec Ideal S100000x64 .f32)
      = Cert.Stages.dense1 (F := Ideal) (W3 (F := Ideal) m ρ c (Proc.devRef .tc main_arg0)) (W3 (F := Ideal) m ρ c (Proc.devRef .tc main_arg2)) :=
  (W4_arr m ρ c 2).trans
    ((dat0 (V3 m ρ) c).arrAt_eq_of_cover 2
      (Cert.Stages.dense1 (F := Ideal) (W3 (F := Ideal) m ρ c (Proc.devRef .tc main_arg0)) (W3 (F := Ideal) m ρ c (Proc.devRef .tc main_arg2)))
      (fun t _ => flushed_eq m ρ c t) cover)

end Cert.RegionMatmul0

end
-- ==== Proof.StagesAt.lean ====
/-
  The reference's elementwise stages read at an index: a one-row array added to every row adds, at (p, q), the row's
  entry in column q; the maximum with 0 is taken entry by entry.
-/
import proofs.«407844_j89343909692103_2_alg».proof.Proof.Stages
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.StagesAt

open Cert.ReferenceIdeal Cert.ReferenceIdeal.Gen
open Idealize.ShloMosaic Idealize.ShloMosaic.TcCoe Idealize.ShloMosaic.ValueIdx

/-- Entry (p, q) of an array plus a one-row array on every row. -/
theorem addRow64_apply (a : FVec Ideal S100000x64 .f32) (r : FVec Ideal S1x64 .f32) (p : Fin 100000) (q : Fin 64) :
    Cert.Stages.addRow64 (F := Ideal) a r (ix2 p q) = (a (ix2 p q) : EReal) + (r (ix2 (0 : Fin 1) q) : EReal) := by
  unfold Cert.Stages.addRow64
  rw [addf_apply]
  -- the one row laid down the rows reads, at (p, q), the row at (0, q): axis 0 of the row has extent 1, axis 1 is kept
  rw [broadcastInDim_apply _ _ r (ix2 p q) (ix2 (0 : Fin 1) q) (fun b => match b with | ⟨0, _⟩ => rfl | ⟨1, _⟩ => rfl)]

/-- Entry (p, q) of the maximum with 0. -/
theorem relu64_apply (a : FVec Ideal S100000x64 .f32) (p : Fin 100000) (q : Fin 64) :
    Cert.Stages.relu64 (F := Ideal) a (ix2 p q) = max (a (ix2 p q) : EReal) 0 := by
  unfold Cert.Stages.relu64
  rw [maximumf_apply]
  -- the broadcast scalar reads the constant everywhere, and the constant's word is the real 0
  show max (a (ix2 p q) : EReal) (Ideal.ofBits .f32 0x00000000#32) = _
  rw [Ideal.ofBits_zero_f32]

end Cert.StagesAt

end
-- ==== Proof.RegionFused1.lean ====
/-
  The second kernel region: twenty row blocks of 5000 rows. At each block the body adds the one-row bias to every row of
  the block of the aggregated first layer, takes the maximum with 0, and multiplies by the whole of W2 (re-formatting is
  the identity over the extended reals) into a zero accumulator. So after the region the result array is the dense
  product with W2 of max (a + bias row, 0), for a the aggregated array the region found.
-/
import proofs.«407844_j89343909692103_2_alg».proof.Proof.Gen.KernelIdeal.Frame
import proofs.«407844_j89343909692103_2_alg».proof.Proof.Stages
import proofs.«407844_j89343909692103_2_alg».proof.Proof.DenseAt
import proofs.«407844_j89343909692103_2_alg».proof.Proof.StagesAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RegionFused1

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's matrix product at an index -/

/-- The body's product, on its left operand's row axis: the result's row. -/
theorem lhsBody_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
/-- On its left operand's column axis: the summation index. -/
theorem lhsBody_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- On its right operand's row axis: the summation index. -/
theorem rhsBody_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- On its right operand's column axis: the result's column. -/
theorem rhsBody_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- A block's product into a zero accumulator, at row p and column q: the sum over k of l(p, k) · r(k, q). -/
theorem matmulBody_apply (l : FVec Ideal S5000x64 .bf16) (r : FVec Ideal S64x32 .bf16) (p : Fin 5000) (q : Fin 32) :
    matmul (F := Ideal) dot_S5000x64_S64x32_S5000x32_1_0_0_1_n_n none l r (constant S5000x32 .f32 0x00000000#32) (ix2 p q)
      = ∑ k : Fin 64, l (ix2 p k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k :=
    funext fun a => Fin.ext (by
      match a with
      | ⟨0, _⟩ => exact lhsBody_0 _ _
      | ⟨1, _⟩ => exact (lhsBody_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q :=
    funext fun a => Fin.ext (by
      match a with
      | ⟨0, _⟩ => exact (rhsBody_0 _ _).trans hk
      | ⟨1, _⟩ => exact rhsBody_1 _ _)
  rw [el, er]

/-! ## The body's arithmetic at an index -/

/-- The body's arithmetic at row p and column q of a block: the sum over k of max (x0(p, k) + x1(0, k), 0) · x2(k, q). -/
theorem pay_apply (x0 : Vec Ideal S5000x64 .f32) (x1 : Vec Ideal S1x64 .f32) (x2 : Vec Ideal S64x32 .f32) (p : Fin 5000) (q : Fin 32) :
    k1_pay1 (F := Ideal) x0 x1 x2 (ix2 p q) = ∑ k : Fin 64, max (x0 (ix2 p k) + x1 (ix2 (0 : Fin 1) k)) 0 * x2 (ix2 k q) := by
  unfold k1_pay1
  refine (matmulBody_apply _ _ p q).trans ?_
  refine Finset.sum_congr rfl fun k _ => ?_
  rw [truncf_apply, truncf_apply, maximumf_apply, addf_apply, shapeCast_self, shapeCast_self, broadcast_apply]
  rw [broadcastTo_1b_ab_apply]
  show max _ (Ideal.ofBits .f32 0x00000000#32) * _ = _
  rw [Ideal.ofBits_zero_f32]

/-! ## From the blocks to the array -/

theorem hz : (![0, 0] : Fin 2 → Nat) = fun _ => 0 := funext fun a => by fin_cases a <;> rfl

/-- What the region's result array holds in the end, as one function of the three arrays the region reads. -/
abbrev wholeResult (a : FVec Ideal S100000x64 .f32) (row : FVec Ideal S1x64 .f32) (W : FVec Ideal S64x32 .f32) : FVec Ideal S100000x32 .f32 :=
  Cert.Stages.dense2 (F := Ideal) (Cert.Stages.relu64 (Cert.Stages.addRow64 a row)) W

/-- One block: if the three loaded blocks are rows 5000 n … 5000 n + 4999 of a, the whole bias row and the whole of W,
    the body's arithmetic at (p, q) is the whole result at (5000 n + p, q). -/
theorem block_eq (a : FVec Ideal S100000x64 .f32) (row : FVec Ideal S1x64 .f32) (W : FVec Ideal S64x32 .f32)
    (x0 : Vec Ideal S5000x64 .f32) (x1 : Vec Ideal S1x64 .f32) (x2 : Vec Ideal S64x32 .f32) (n : Nat) (hn : n < 20)
    (h0 : ∀ (p : Fin 5000) (k : Fin 64), x0 (ix2 p k) = a (ix2 (⟨n * 5000 + p.val, by omega⟩ : Fin 100000) k))
    (h1 : ∀ k : Fin 64, x1 (ix2 (0 : Fin 1) k) = row (ix2 (0 : Fin 1) k))
    (h2 : ∀ (k : Fin 64) (q : Fin 32), x2 (ix2 k q) = W (ix2 k q))
    (p : Fin 5000) (q : Fin 32) :
    k1_pay1 (F := Ideal) x0 x1 x2 (ix2 p q) = wholeResult a row W (ix2 (⟨n * 5000 + p.val, by omega⟩ : Fin 100000) q) := by
  rw [pay_apply]
  refine (Finset.sum_congr rfl fun k _ => ?_).trans (Cert.DenseAt.dense2_apply _ _ _ _).symm
  rw [Cert.StagesAt.relu64_apply, Cert.StagesAt.addRow64_apply, h0, h1, h2]

/-- The blocks' index maps over the twenty grid points: the result's and the first input's block index is the point
    itself along the rows and 0 along the columns; the bias row's and W2's blocks are the whole arrays. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem point_lt (t : Fin cfg1.N) : t.val < 20 := lt_of_lt_of_eq t.isLt N_1

section
variable (V : (c : Dev nD) → (b : Ref sig .tc) → Buf (Elt Ideal) ((c : Thread nD τ).loc b))

/-- WHAT POINT t WRITES BACK is block t of the whole result of the three arrays as the region finds them. -/
theorem flushed_eq (c : Dev nD) (t : Fin cfg1.N) :
    (dat1 V c).flushed 3 t = ((cfg1.win 3).blk t).view.read (Elt Ideal) (wholeResult (V c main_v37) (V c main_v38) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x32) hz]
  obtain ⟨e30, e31, e00, e01, e10, e11, e20, e21⟩ := idx_facts t
  have ht := point_lt t
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q)
    = wholeResult (V c main_v37) (V c main_v38) (V c main_arg4) (((cfg1.win 3).blk t).view.emb (ix2 p q))
  have hi : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 32 + 1 * q.val = q.val; omega
  rw [hi]
  refine block_eq (V c main_v37) (V c main_v38) (V c main_arg4) (iblk1 V c 0 t) (iblk1 V c 1 t) (iblk1 V c 2 t) t.val ht ?_ ?_ ?_ p q
  · intro p k
    show V c main_v37 (((cfg1.win 0).blk t).view.emb (ix2 p k)) = V c main_v37 (ix2 (⟨t.val * 5000 + p.val, by omega⟩ : Fin 100000) k)
    refine congrArg (V c main_v37) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v38 (((cfg1.win 1).blk t).view.emb (ix2 (0 : Fin 1) k)) = V c main_v38 (ix2 (0 : Fin 1) k)
    refine congrArg (V c main_v38) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k q
    show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 32 + 1 * q.val = q.val; omega

/-- An index of the result array is in point t's block iff each coordinate is in the block's range on its axis. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v39).slice (win1_3.rect t)).set ↔ _
  rw [View.set_slice_whole, Rect.mem_set_unit]
  exact Iff.rfl

/-- Row r of the result lies in the block of point r / 5000, which is written back. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_3 _, ?_⟩
  rw [mem_blk]
  obtain ⟨e30, e31, -⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 32 ≤ (i 1).val ∧ (i 1).val < win1_3.index _ (1 : Fin 2) * 32 + 32
    rw [e31]; omega

/-- So after the region the result array is the whole result of the three arrays as the region found them. -/
theorem final (c : Dev nD) : (dat1 V c).arrAt 3 cfg1.N = wholeResult (V c main_v37) (V c main_v38) (V c main_arg4) :=
  (dat1 V c).arrAt_eq_of_cover 3 (wholeResult (V c main_v37) (V c main_v38) (V c main_arg4)) (fun t _ => flushed_eq V c t) (cover)

end

/-- After region 1 its result array is `max (a + row, 0) · W2` of the three arrays it read, as the region found them. -/
theorem value (c : Dev nD) :
    (W7 (F := Ideal) m ρ c (Proc.devRef .tc main_v39) : FVec Ideal S100000x32 .f32)
      = Cert.Stages.dense2 (F := Ideal)
          (Cert.Stages.relu64 (Cert.Stages.addRow64 (W6 (F := Ideal) m ρ c (Proc.devRef .tc main_v37)) (W6 (F := Ideal) m ρ c (Proc.devRef .tc main_v38))))
          (W6 (F := Ideal) m ρ c (Proc.devRef .tc main_arg4)) :=
  (W7_arr m ρ c 3).trans (final (V6 m ρ) c)

end Cert.RegionFused1

end
-- ==== Proof.RegionBias2.lean ====
/-
  The third kernel region: twenty row blocks of 5000 rows. At each block the body adds the one-row bias to every row of
  the block of the aggregated second layer. So after the region the result array is that array plus the bias row on
  every row.

  Row r of the array lies in block r / 5000, at row r % 5000 of it; the bias row is one block, the same at every point.
  Entry (p, q) of what block t writes back is a[5000 t + p, q] + b[0, q], which is entry (5000 t + p, q) of the
  whole-array sum; the twenty blocks cover the 100000 rows, so the array ends as the whole-array sum.
-/
import proofs.«407844_j89343909692103_2_alg».proof.Proof.Gen.KernelIdeal.Frame
import proofs.«407844_j89343909692103_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RegionBias2

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arithmetic at one entry -/

/-- The offsets (0, 0) as the constant function 0. -/
theorem zeroOffsets : (![0, 0] : Fin 2 → Nat) = fun _ => 0 := funext fun a => by fin_cases a <;> rfl

/-- The body's sum at entry (p, q) of a block: the block's entry plus the one row's entry in column q. -/
theorem blockSum_apply (x0 : Vec Ideal S5000x32 .f32) (x1 : Vec Ideal S1x32 .f32) (p : Fin 5000) (q : Fin 32) :
    k2_pay1 x0 x1 (ix2 p q) = x0 (ix2 p q) + x1 (ix2 (0 : Fin 1) q) := by
  unfold k2_pay1
  show shapeCast S5000x32 x0 shapeCasts_S5000x32_S5000x32 (ix2 p q)
      + broadcastTo S5000x32 (shapeCast S1x32 x1 shapeCasts_S1x32_S1x32) broadcasts_S1x32_S5000x32 (ix2 p q) = _
  have e0 : shapeCast S5000x32 x0 shapeCasts_S5000x32_S5000x32 = x0 := shapeCast_self x0 _
  have e1 : shapeCast S1x32 x1 shapeCasts_S1x32_S1x32 = x1 := shapeCast_self x1 _
  have e2 : broadcastTo S5000x32 x1 broadcasts_S1x32_S5000x32 (ix2 p q) = x1 (ix2 (0 : Fin 1) q) :=
    broadcastTo_1b_ab_apply x1 broadcasts_S1x32_S5000x32 p q
  rw [e0, e1, e2]

/-- The whole-array sum at entry (p, q): the array's entry plus the one row's entry in column q. -/
theorem arraySum_apply (a : FVec Ideal S100000x32 .f32) (r : FVec Ideal S1x32 .f32) (p : Fin 100000) (q : Fin 32) :
    Cert.Stages.addRow32 (F := Ideal) a r (ix2 p q) = a (ix2 p q) + r (ix2 (0 : Fin 1) q) := by
  unfold Cert.Stages.addRow32
  show a (ix2 p q) + broadcastInDim ReferenceIdeal.S100000x32 ![0, 1] ReferenceIdeal.Gen.bcast_S1x32_S100000x32_0_1 r (ix2 p q) = _
  congr 1
  refine broadcastInDim_apply _ _ r (ix2 p q) (ix2 (0 : Fin 1) q) fun ax => ?_
  match ax with
  | ⟨0, _⟩ => rfl
  | ⟨1, _⟩ => rfl

/-- If a block holds rows 5000 b … 5000 b + 4999 of the array and the one-row block is the row, the body's sum at
    (p, q) is the whole-array sum at (5000 b + p, q). -/
theorem blockSum_eq_arraySum (a : FVec Ideal S100000x32 .f32) (r : FVec Ideal S1x32 .f32)
    (x0 : Vec Ideal S5000x32 .f32) (x1 : Vec Ideal S1x32 .f32) (b : Nat)
    (h0 : ∀ (p : Fin 5000) (q : Fin 32) (i : Fin 100000), i.val = b * 5000 + p.val → x0 (ix2 p q) = a (ix2 i q))
    (h1 : x1 = r)
    (p : Fin 5000) (q : Fin 32) (i : Fin 100000) (hi : i.val = b * 5000 + p.val) :
    k2_pay1 x0 x1 (ix2 p q) = Cert.Stages.addRow32 (F := Ideal) a r (ix2 i q) := by
  rw [blockSum_apply, arraySum_apply, h1, h0 p q i hi]

/-! ## Where the blocks sit -/

/-- At point t the array's block and the result's block are block t along the rows (and the only block along the
    columns); the one-row block is always block (0, 0). -/
theorem blockIndex : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The aggregated array and the bias row as the region finds them, and their blocks at point t. -/
abbrev arr (c : Dev nD) : FVec Ideal S100000x32 .f32 := V9 (F := Ideal) m ρ c (Pipeline.arrRef spec2 0)
abbrev row (c : Dev nD) : FVec Ideal S1x32 .f32 := V9 (F := Ideal) m ρ c (Pipeline.arrRef spec2 1)
abbrev arrBlock (c : Dev nD) (t : Fin cfg2.N) : Vec Ideal S5000x32 .f32 := iblk2 (V9 m ρ) c 0 t
abbrev rowBlock (c : Dev nD) (t : Fin cfg2.N) : Vec Ideal S1x32 .f32 := iblk2 (V9 m ρ) c 1 t

/-- Entry (p, q) of the array's block t sits at (5000 t + p, q) of the array. -/
theorem arrBlock_place (t : Fin cfg2.N) (p : Fin 5000) (q : Fin 32) (i : Fin 100000)
    (hi : i.val = t.val * 5000 + p.val) :
    (win2_0.rect t).emb (ix2 p q) = (ix2 i q : S100000x32.Idx) := by
  obtain ⟨e0, e1, e2, e3, e4, e5⟩ := blockIndex t
  funext a
  apply Fin.ext
  rw [Pipeline.Window.rect_emb_val]
  match a with
  | ⟨0, _⟩ => show win2_0.index t (0 : Fin 2) * 5000 + p.val = i.val; omega
  | ⟨1, _⟩ => show win2_0.index t (1 : Fin 2) * 32 + q.val = q.val; omega

/-- So the array's block t at (p, q) is the array at (5000 t + p, q). -/
theorem arrBlock_apply (c : Dev nD) (t : Fin cfg2.N) (p : Fin 5000) (q : Fin 32) (i : Fin 100000)
    (hi : i.val = t.val * 5000 + p.val) :
    arrBlock m ρ c t (ix2 p q) = arr m ρ c (ix2 i q) := by
  unfold arrBlock iblk2
  rw [View.read_apply]
  rw [cast_eq]
  exact congrArg (arr m ρ c) (arrBlock_place t p q i hi)

/-- Every entry of the one-row block sits at the same place of the row. -/
theorem rowBlock_place (t : Fin cfg2.N) (y : S1x32.Idx) : (win2_1.rect t).emb y = y := by
  obtain ⟨e0, e1, e2, e3, e4, e5⟩ := blockIndex t
  funext a
  apply Fin.ext
  rw [Pipeline.Window.rect_emb_val]
  match a with
  | ⟨0, _⟩ => show win2_1.index t (0 : Fin 2) * 1 + (y 0).val = (y 0).val; omega
  | ⟨1, _⟩ => show win2_1.index t (1 : Fin 2) * 32 + (y 1).val = (y 1).val; omega

/-- So the one-row block is the row, at every point. -/
theorem rowBlock_eq (c : Dev nD) (t : Fin cfg2.N) : rowBlock m ρ c t = row m ρ c := by
  funext y
  unfold rowBlock iblk2
  rw [View.read_apply]
  rw [cast_eq]
  exact congrArg (row m ρ c) (rowBlock_place t y)

/-! ## What each point writes back, and the array after the region -/

/-- The whole-array sum: the aggregated array plus the bias row on every row. -/
abbrev sumArr (c : Dev nD) : FVec Ideal S100000x32 .f32 :=
  Cert.Stages.addRow32 (F := Ideal) (arr m ρ c) (row m ρ c)

/-- The body's sum of the blocks at point t, at a block entry j, is the whole-array sum at the entry i with
    i₀ = 5000 t + j₀ and i₁ = j₁. -/
theorem blockSum_at (c : Dev nD) (t : Fin cfg2.N) (j : S5000x32.Idx) (i : S100000x32.Idx)
    (hi0 : (i 0).val = t.val * 5000 + (j 0).val) (hi1 : (i 1).val = (j 1).val) :
    k2_pay1 (arrBlock m ρ c t) (rowBlock m ρ c t) j = sumArr m ρ c i := by
  have hp : (j 0).val < 5000 := (j 0).isLt
  have hq : (j 1).val < 32 := (j 1).isLt
  have hi : (i 0).val < 100000 := (i 0).isLt
  have hj : j = ix2 (⟨(j 0).val, hp⟩ : Fin 5000) (⟨(j 1).val, hq⟩ : Fin 32) :=
    funext fun a => match a with | ⟨0, _⟩ => rfl | ⟨1, _⟩ => rfl
  have hi' : i = ix2 (⟨(i 0).val, hi⟩ : Fin 100000) (⟨(j 1).val, hq⟩ : Fin 32) :=
    funext fun a => match a with | ⟨0, _⟩ => rfl | ⟨1, _⟩ => Fin.ext hi1
  rw [hj, hi']
  exact blockSum_eq_arraySum (arr m ρ c) (row m ρ c) (arrBlock m ρ c t) (rowBlock m ρ c t) t.val
    (fun p q i hi => arrBlock_apply m ρ c t p q i hi) (rowBlock_eq m ρ c t) _ _ _ hi0

/-- What point t writes back is block t of the whole-array sum. -/
theorem flushed_eq (c : Dev nD) (t : Fin cfg2.N) :
    (dat2 (V9 m ρ) c).flushed 2 t = ((cfg2.win 2).blk t).view.read (Elt Ideal) (sumArr m ρ c) := by
  show (cfg2.win 2).cut (grid2.coords t) ((dat2 (V9 m ρ) c).after 2 t) = _
  rw [after2_2]
  unfold out2_2
  rw [View.canon_unit_zero zeroOffsets]
  simp only [View.ld_unit_zero (S := S5000x32) zeroOffsets, View.ld_unit_zero (S := S1x32) zeroOffsets]
  obtain ⟨e0, e1, e2, e3, e4, e5⟩ := blockIndex t
  funext j
  rw [View.read_apply]
  rw [cast_eq]
  refine blockSum_at m ρ c t ((cfg2.win 2).xinj (grid2.coords t) j) (((cfg2.win 2).blk t).view.emb j) ?_ ?_
  · refine (Pipeline.Window.rect_emb_val win2_2 t j 0).trans ?_
    show win2_2.index t (0 : Fin 2) * 5000 + (j 0).val = t.val * 5000 + (j 0).val
    omega
  · refine (Pipeline.Window.rect_emb_val win2_2 t j 1).trans ?_
    show win2_2.index t (1 : Fin 2) * 32 + (j 1).val = (j 1).val
    omega

/-- An entry of the result array is in block t iff, on each axis, its coordinate is in the block's range. -/
theorem mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v48).slice (win2_2.rect t)).set ↔ _
  rw [View.set_slice_whole, Rect.mem_set_unit]
  exact Iff.rfl

/-- Every entry (r, q) of the result array is in the block of point r / 5000, which writes back. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 5000 < grid2.N := by rw [N_2]; omega
  obtain ⟨e0, e1, e2, e3, e4, e5⟩ := blockIndex ⟨(i 0).val / 5000, hlt⟩
  refine ⟨⟨(i 0).val / 5000, hlt⟩, flush2_2 _, ?_⟩
  rw [mem_block]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    have e4' : win2_2.index ⟨(i 0).val / 5000, hlt⟩ (0 : Fin 2) = (i 0).val / 5000 := e4
    omega
  | ⟨1, _⟩ =>
    show win2_2.index ⟨(i 0).val / 5000, hlt⟩ (1 : Fin 2) * 32 ≤ (i 1).val ∧ (i 1).val < win2_2.index ⟨(i 0).val / 5000, hlt⟩ (1 : Fin 2) * 32 + 32
    omega

/-- So after the twenty write-backs the result array is the whole-array sum. -/
theorem result_eq (c : Dev nD) : (dat2 (V9 m ρ) c).arrAt 2 cfg2.N = sumArr m ρ c :=
  (dat2 (V9 m ρ) c).arrAt_eq_of_cover 2 (sumArr m ρ c) (fun t _ => flushed_eq m ρ c t) covered

/-- After region 2 its result array is the aggregated array it read plus the bias row it read, on every row. -/
theorem value (c : Dev nD) :
    (W10 (F := Ideal) m ρ c (Proc.devRef .tc main_v48) : FVec Ideal S100000x32 .f32)
      = Cert.Stages.addRow32 (F := Ideal) (W9 (F := Ideal) m ρ c (Proc.devRef .tc main_v46)) (W9 (F := Ideal) m ρ c (Proc.devRef .tc main_v47)) :=
  (W10_arr m ρ c 2).trans (result_eq m ρ c)

end Cert.RegionBias2

end
-- ==== Proof.HostBefore.lean ====
/-
  What the host operations before the first kernel region leave in the buffers: the sources and destinations (the edge
  list's rows, each followed by the self loops), the per-edge normalisation, and the argument arrays untouched. Each is
  the same composition of operations as the reference's stage of that name.
-/
import proofs.«407844_j89343909692103_2_alg».proof.Proof.Gen.KernelIdeal.Frame
import proofs.«407844_j89343909692103_2_alg».proof.Proof.Stages
import Idealize.ShloMosaic.Lib.StableHlo.Run

set_option maxRecDepth 16384

noncomputable section

namespace Cert.HostBefore

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that none of a list of operations writes holds after them what it held before: each operation's one
    result buffer is another reference. -/
local macro "unwritten" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! After the first list: the sources, the destinations, the degree, its comparison with zero, its inverse square root
    and the zero constant, each read back operation by operation. -/

theorem src_at1 (c : Dev nD) :
    (W1 m ρ c (Proc.devRef .tc main_v5) : IVec S1700000 32) = Cert.Stages.src (m ((c : Thread nD τ).loc main_arg1)) := by
  show StableHlo.after hostOps0 (fun b => m (c, b)) (Proc.devRef .tc main_v5) = _
  after_results
  unfold Cert.Stages.src Cert.Stages.edgeRow0
  rfl
theorem dst_at1 (c : Dev nD) :
    (W1 m ρ c (Proc.devRef .tc main_v6) : IVec S1700000 32) = Cert.Stages.dst (m ((c : Thread nD τ).loc main_arg1)) := by
  show StableHlo.after hostOps0 (fun b => m (c, b)) (Proc.devRef .tc main_v6) = _
  after_results
  unfold Cert.Stages.dst Cert.Stages.edgeRow1
  rfl
theorem degree_at1 (c : Dev nD) :
    (W1 m ρ c (Proc.devRef .tc main_v10) : FVec F S100000 .f32) = Cert.Stages.degree (F := F) (m ((c : Thread nD τ).loc main_arg1)) := by
  show StableHlo.after hostOps0 (fun b => m (c, b)) (Proc.devRef .tc main_v10) = _
  after_results
  unfold Cert.Stages.degree Cert.Stages.dst Cert.Stages.edgeRow1
  rfl
theorem positive_at1 (c : Dev nD) :
    (W1 m ρ c (Proc.devRef .tc main_v12) : IVec S100000 1)
      = cmpf (F := F) .ogt (Cert.Stages.degree (F := F) (m ((c : Thread nD τ).loc main_arg1)))
          (broadcastInDim S100000 ![] bcast_S_S100000 (constant S_ .f32 0x00000000#32)) := by
  show StableHlo.after hostOps0 (fun b => m (c, b)) (Proc.devRef .tc main_v12) = _
  after_results
  unfold Cert.Stages.degree Cert.Stages.dst Cert.Stages.edgeRow1
  rfl
theorem rsqrt_at1 (c : Dev nD) :
    (W1 m ρ c (Proc.devRef .tc main_v13) : FVec F S100000 .f32)
      = Host.rsqrt (Cert.Stages.degree (F := F) (m ((c : Thread nD τ).loc main_arg1))) := by
  show StableHlo.after hostOps0 (fun b => m (c, b)) (Proc.devRef .tc main_v13) = _
  after_results
  unfold Cert.Stages.degree Cert.Stages.dst Cert.Stages.edgeRow1
  rfl
theorem zero_at1 (c : Dev nD) :
    (W1 m ρ c (Proc.devRef .tc main_cst_2) : FVec F S_ .f32) = constant S_ .f32 0x00000000#32 := by
  show StableHlo.after hostOps0 (fun b => m (c, b)) (Proc.devRef .tc main_cst_2) = _
  after_results

/-- The outlined select, from any contents: the second list leaves at its result the first operand where the
    condition holds, else the broadcast constant. -/
theorem select_after (V : Valuation τ sig (Elt F)) :
    (StableHlo.after hostOps0_1 V (Proc.devRef .tc main_v14) : FVec F S100000 .f32)
      = select (V (Proc.devRef .tc main_v12) : IVec S100000 1) (V (Proc.devRef .tc main_v13) : FVec F S100000 .f32)
          (broadcastInDim S100000 ![] bcast_S_S100000 (id (V (Proc.devRef .tc main_cst_2) : FVec F S_ .f32))) := by
  after_results
  rfl

/-- The third list, from any contents: the product of the table's entries at the wrapped sources and at the wrapped
    destinations. -/
theorem norm_after (V : Valuation τ sig (Elt F)) :
    (StableHlo.after hostOps0_2 V (Proc.devRef .tc main_v29) : FVec F S1700000 .f32)
      = mulf
          (Host.gather gather_S100000_S1700000x1_S1700000_n_0_n_n_0_1_1 (V (Proc.devRef .tc main_v14) : FVec F S100000 .f32)
            (Cert.Stages.col1 (Cert.Stages.wrapIdx (V (Proc.devRef .tc main_v5) : IVec S1700000 32))))
          (Host.gather gather_S100000_S1700000x1_S1700000_n_0_n_n_0_1_1 (V (Proc.devRef .tc main_v14) : FVec F S100000 .f32)
            (Cert.Stages.col1 (Cert.Stages.wrapIdx (V (Proc.devRef .tc main_v6) : IVec S1700000 32)))) := by
  after_results_simp
  unfold Cert.Stages.wrapIdx
  rfl

/-- After the outlined select: the inverse square root of the degree where positive, else zero. -/
theorem invSqrtDeg_at2 (c : Dev nD) :
    (W2 m ρ c (Proc.devRef .tc main_v14) : FVec F S100000 .f32) = Cert.Stages.invSqrtDeg (F := F) (m ((c : Thread nD τ).loc main_arg1)) := by
  refine (select_after (W1 m ρ c)).trans ?_
  rw [positive_at1 m ρ c, rsqrt_at1 m ρ c, zero_at1 m ρ c]
  unfold Cert.Stages.invSqrtDeg
  rfl
/-- The outlined select writes neither the sources nor the destinations. -/
theorem src_at2 (c : Dev nD) :
    (W2 m ρ c (Proc.devRef .tc main_v5) : IVec S1700000 32) = Cert.Stages.src (m ((c : Thread nD τ).loc main_arg1)) :=
  (show W2 m ρ c (Proc.devRef .tc main_v5) = W1 m ρ c (Proc.devRef .tc main_v5) by unwritten hostOps0_1).trans (src_at1 m ρ c)
theorem dst_at2 (c : Dev nD) :
    (W2 m ρ c (Proc.devRef .tc main_v6) : IVec S1700000 32) = Cert.Stages.dst (m ((c : Thread nD τ).loc main_arg1)) :=
  (show W2 m ρ c (Proc.devRef .tc main_v6) = W1 m ρ c (Proc.devRef .tc main_v6) by unwritten hostOps0_1).trans (dst_at1 m ρ c)

/-- At the first region's entry the sources are the reference's `src` of the edge list. -/
theorem src_at3 (c : Dev nD) :
    (W3 m ρ c (Proc.devRef .tc main_v5) : IVec S1700000 32) = Cert.Stages.src (m ((c : Thread nD τ).loc main_arg1)) :=
  (show W3 m ρ c (Proc.devRef .tc main_v5) = W2 m ρ c (Proc.devRef .tc main_v5) by unwritten hostOps0_2).trans (src_at2 m ρ c)
/-- … and the destinations its `dst`. -/
theorem dst_at3 (c : Dev nD) :
    (W3 m ρ c (Proc.devRef .tc main_v6) : IVec S1700000 32) = Cert.Stages.dst (m ((c : Thread nD τ).loc main_arg1)) :=
  (show W3 m ρ c (Proc.devRef .tc main_v6) = W2 m ρ c (Proc.devRef .tc main_v6) by unwritten hostOps0_2).trans (dst_at2 m ρ c)
/-- … and the per-edge normalisation its `edgeNorm`. -/
theorem norm_at3 (c : Dev nD) :
    (W3 m ρ c (Proc.devRef .tc main_v29) : FVec F S1700000 .f32) = Cert.Stages.edgeNorm (F := F) (m ((c : Thread nD τ).loc main_arg1)) := by
  refine (norm_after (W2 m ρ c)).trans ?_
  rw [invSqrtDeg_at2 m ρ c, src_at2 m ρ c, dst_at2 m ρ c]
  unfold Cert.Stages.edgeNorm
  rfl
/-- No host operation before the first region writes an argument array. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem arg5_at3 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

end Cert.HostBefore

end
-- ==== Proof.HostBetween.lean ====
/-
  What the host operations between the first two kernel regions leave in the aggregate's buffer: the program fetches the
  previous region's rows at the sources (its own fetch, `takeRows`), scales each edge's row by the edge's normalisation
  and sums the rows by destination. Also: a bias vector reshaped to one row is the vector broadcast along a new
  leading axis.
-/
import proofs.«407844_j89343909692103_2_alg».proof.Proof.Gen.KernelIdeal.Frame
import proofs.«407844_j89343909692103_2_alg».proof.Proof.Stages
import proofs.«407844_j89343909692103_2_alg».proof.Proof.TakeRows
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.HostBetween

open Cert.KernelIdeal Cert.KernelIdeal.Gen
open Idealize.ShloMosaic Idealize.ShloMosaic.TcCoe Idealize.SL.Sem

variable {F : FTy → Type} [FloatOps F]

/-- A vector reshaped to one row is the vector broadcast along a new leading axis of extent 1. -/
theorem row64_eq (b : FVec F S64 .f32) : (shapeCast _ b shapeCasts_S64_S1x64 : FVec F S1x64 .f32) = Cert.Stages.asRow64 b := by
  -- both read, at (0, q), the vector at q
  funext j
  unfold Cert.Stages.asRow64
  rw [shapeCast_addUnit_apply (![64]) b shapeCasts_S64_S1x64 j]
  refine (broadcastInDim_apply _ _ b j (fun a => j a.succ) (fun a => ?_)).symm
  match a with
  | ⟨0, _⟩ => rfl
theorem row32_eq (b : FVec F S32 .f32) : (shapeCast _ b shapeCasts_S32_S1x32 : FVec F S1x32 .f32) = Cert.Stages.asRow32 b := by
  funext j
  unfold Cert.Stages.asRow32
  rw [shapeCast_addUnit_apply (![32]) b shapeCasts_S32_S1x32 j]
  refine (broadcastInDim_apply _ _ b j (fun a => j a.succ) (fun a => ?_)).symm
  match a with
  | ⟨0, _⟩ => rfl

/-! ## The two stretches of host operations, from any contents -/

/-- Contents carried to a typed reference's own buffer type and back are the contents. -/
theorem ofBuf_toBuf {Val : EltTy → Type} {T : BufTy} (x : StableHlo.TRef sig T) (v : T.Contents Val) :
    x.ofBuf (x.toBuf v) = v := by
  obtain ⟨r, h, h1, h2⟩ := x
  subst h
  rfl

set_option maxHeartbeats 1000000 in
/-- The outlined row fetch, from any contents: at its result, the program's own fetch (`takeRows64`) of the table's
    rows at the sources. -/
theorem take64_after (V : Valuation τ sig (Elt F)) :
    (StableHlo.after hostOps1 V (Proc.devRef .tc main_v31) : FVec F S1700000x64 .f32)
      = Cert.TakeRows.takeRows64 (F := F) (V (Proc.devRef .tc main_v30) : FVec F S100000x64 .f32)
          (V (Proc.devRef .tc main_v5) : IVec S1700000 32) := by
  -- the two operands and the result, read at their own types
  have e5 : (StableHlo.TRef.of main_v5 : StableHlo.TRef sig ⟨S1700000, .i32⟩).ofBuf (V (Proc.devRef .tc main_v5))
      = (V (Proc.devRef .tc main_v5) : IVec S1700000 32) := rfl
  have e30 : (StableHlo.TRef.of main_v30 : StableHlo.TRef sig ⟨S100000x64, .f32⟩).ofBuf (V (Proc.devRef .tc main_v30))
      = (V (Proc.devRef .tc main_v30) : FVec F S100000x64 .f32) := rfl
  have e31 : ∀ v : FVec F S1700000x64 .f32, @Eq (FVec F S1700000x64 .f32)
      ((StableHlo.TRef.of main_v31 : StableHlo.TRef sig ⟨S1700000x64, .f32⟩).toBuf (Val := Elt F) v) v := fun v => rfl
  after_results_simp
  simp only [ofBuf_toBuf, e5, e30, e31]
  unfold Cert.TakeRows.takeRows64 Cert.TakeRows.inTable Cert.TakeRows.wrappedCol
  rfl

/-- The operations after the fetch, from any contents: at the aggregate's buffer, the fetched rows scaled by the
    normalisation and summed by destination. -/
theorem scatter64_after (V : Valuation τ sig (Elt F)) :
    (StableHlo.after hostOps1_1 V (Proc.devRef .tc main_v37) : FVec F S100000x64 .f32)
      = Cert.Stages.scatterScaled64 (F := F) (V (Proc.devRef .tc main_v6) : IVec S1700000 32)
          (V (Proc.devRef .tc main_v29) : FVec F S1700000 .f32) (V (Proc.devRef .tc main_v31) : FVec F S1700000x64 .f32) := by
  after_results
  unfold Cert.Stages.scatterScaled64 Cert.Stages.col1
  rfl

/-- A buffer that none of a list of operations writes holds after them what it held before: each operation's one
    result buffer is another reference. -/
local macro "unwritten" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt F) ℓ) (ρ : Dev nD → PrngReg)

/-! ## Between regions 0 and 1 (from the contents `W4` at region 0's exit to `W6` at region 1's entry) -/

/-- The aggregated first layer: the fetched rows scaled by the normalisation and summed by destination. -/
theorem agg_at6 (c : Dev nD) :
    (W6 m ρ c (Proc.devRef .tc main_v37) : FVec F S100000x64 .f32)
      = Cert.Stages.scatterScaled64 (F := F) (W4 m ρ c (Proc.devRef .tc main_v6)) (W4 m ρ c (Proc.devRef .tc main_v29))
          (Cert.TakeRows.takeRows64 (F := F) (W4 m ρ c (Proc.devRef .tc main_v30)) (W4 m ρ c (Proc.devRef .tc main_v5))) := by
  -- the row fetch writes neither the destinations nor the normalisation, and leaves its rows in its result
  have h6 : W5 m ρ c (Proc.devRef .tc main_v6) = W4 m ρ c (Proc.devRef .tc main_v6) := by unwritten hostOps1
  have h29 : W5 m ρ c (Proc.devRef .tc main_v29) = W4 m ρ c (Proc.devRef .tc main_v29) := by unwritten hostOps1
  have h31 : (W5 m ρ c (Proc.devRef .tc main_v31) : FVec F S1700000x64 .f32)
      = Cert.TakeRows.takeRows64 (F := F) (W4 m ρ c (Proc.devRef .tc main_v30)) (W4 m ρ c (Proc.devRef .tc main_v5)) :=
    take64_after (W4 m ρ c)
  refine (scatter64_after (W5 m ρ c)).trans ?_
  rw [h6, h29, h31]

end Cert.HostBetween

end
-- ==== Proof.HostKeeps.lean ====
/-
  The host operations between regions 0 and 1 (the row fetch, the scaling, the sum by destination, the reshape of the
  bias) write none of: the sources, the destinations, the normalisation, the second weight matrix, the second bias.
-/
import proofs.«407844_j89343909692103_2_alg».proof.Proof.Gen.KernelIdeal.Frame
import proofs.«407844_j89343909692103_2_alg».proof.Proof.Stages
import proofs.«407844_j89343909692103_2_alg».proof.Proof.TakeRows
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.HostKeeps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that none of a list of operations writes holds after them what it held before: each operation's one
    result buffer is another reference. -/
local macro "unwritten" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- What these operations do not write stays. -/
theorem keep6_v5 (c : Dev nD) : W6 m ρ c (Proc.devRef .tc main_v5) = W4 m ρ c (Proc.devRef .tc main_v5) :=
  calc W6 m ρ c (Proc.devRef .tc main_v5)
    _ = W5 m ρ c (Proc.devRef .tc main_v5) := by unwritten hostOps1_1
    _ = W4 m ρ c (Proc.devRef .tc main_v5) := by unwritten hostOps1
theorem keep6_v6 (c : Dev nD) : W6 m ρ c (Proc.devRef .tc main_v6) = W4 m ρ c (Proc.devRef .tc main_v6) :=
  calc W6 m ρ c (Proc.devRef .tc main_v6)
    _ = W5 m ρ c (Proc.devRef .tc main_v6) := by unwritten hostOps1_1
    _ = W4 m ρ c (Proc.devRef .tc main_v6) := by unwritten hostOps1
theorem keep6_v29 (c : Dev nD) : W6 m ρ c (Proc.devRef .tc main_v29) = W4 m ρ c (Proc.devRef .tc main_v29) :=
  calc W6 m ρ c (Proc.devRef .tc main_v29)
    _ = W5 m ρ c (Proc.devRef .tc main_v29) := by unwritten hostOps1_1
    _ = W4 m ρ c (Proc.devRef .tc main_v29) := by unwritten hostOps1
theorem keep6_arg4 (c : Dev nD) : W6 m ρ c (Proc.devRef .tc main_arg4) = W4 m ρ c (Proc.devRef .tc main_arg4) :=
  calc W6 m ρ c (Proc.devRef .tc main_arg4)
    _ = W5 m ρ c (Proc.devRef .tc main_arg4) := by unwritten hostOps1_1
    _ = W4 m ρ c (Proc.devRef .tc main_arg4) := by unwritten hostOps1
theorem keep6_arg5 (c : Dev nD) : W6 m ρ c (Proc.devRef .tc main_arg5) = W4 m ρ c (Proc.devRef .tc main_arg5) :=
  calc W6 m ρ c (Proc.devRef .tc main_arg5)
    _ = W5 m ρ c (Proc.devRef .tc main_arg5) := by unwritten hostOps1_1
    _ = W4 m ρ c (Proc.devRef .tc main_arg5) := by unwritten hostOps1

end Cert.HostKeeps

end
-- ==== Proof.HostRows.lean ====
/-
  Before each of regions 1 and 2 the program reshapes a bias vector to one row. A vector reshaped [n] -> [1, n] is the
  vector broadcast along a new leading axis of extent 1, which is how the reference writes the same row.
-/
import proofs.«407844_j89343909692103_2_alg».proof.Proof.Gen.KernelIdeal.Frame
import proofs.«407844_j89343909692103_2_alg».proof.Proof.Stages
import proofs.«407844_j89343909692103_2_alg».proof.Proof.TakeRows
import Idealize.ShloMosaic.Lib.StableHlo.Run
import Idealize.ShloMosaic.Lib.Pipeline.Value
import Idealize.ShloMosaic.Lib.ValueIdx
import Idealize.ShloMosaic.Lib.ValueLayout
import proofs.«407844_j89343909692103_2_alg».proof.Proof.HostBetween

set_option maxRecDepth 16384

noncomputable section

namespace Cert.HostRows

open Cert.KernelIdeal Cert.KernelIdeal.Gen
open Idealize.ShloMosaic Idealize.ShloMosaic.TcCoe Idealize.SL.Sem

variable {F : FTy → Type} [FloatOps F]

/-- From any contents, the operations after the first fetch leave at the row's buffer the first bias vector reshaped
    to one row: the reshape is the last of them, and none of the others writes the bias vector. -/
theorem row_after6 (V : Valuation τ sig (Elt F)) :
    (StableHlo.after hostOps1_1 V (Proc.devRef .tc main_v38) : FVec F S1x64 .f32)
      = shapeCast _ (V (Proc.devRef .tc main_arg3) : FVec F S64 .f32) shapeCasts_S64_S1x64 := by
  after_results
  rfl
/-- From any contents, the first fetch's operations leave the first bias vector as it was: each writes another buffer. -/
theorem arg3_after5 (V : Valuation τ sig (Elt F)) :
    StableHlo.after hostOps1 V (Proc.devRef .tc main_arg3) = V (Proc.devRef .tc main_arg3) := by
  after_results
/-- The same two facts before region 2, for the second bias vector. -/
theorem row_after9 (V : Valuation τ sig (Elt F)) :
    (StableHlo.after hostOps2_1 V (Proc.devRef .tc main_v47) : FVec F S1x32 .f32)
      = shapeCast _ (V (Proc.devRef .tc main_arg5) : FVec F S32 .f32) shapeCasts_S32_S1x32 := by
  after_results
  rfl
theorem arg5_after8 (V : Valuation τ sig (Elt F)) :
    StableHlo.after hostOps2 V (Proc.devRef .tc main_arg5) = V (Proc.devRef .tc main_arg5) := by
  after_results

variable (m : (ℓ : Loc nD τ sig) → Buf (Elt F) ℓ) (ρ : Dev nD → PrngReg)

/-- The first bias as one row, at region 1's entry. -/
theorem row_at6 (c : Dev nD) :
    (W6 m ρ c (Proc.devRef .tc main_v38) : FVec F S1x64 .f32) = Cert.Stages.asRow64 (W4 m ρ c (Proc.devRef .tc main_arg3)) := by
  refine (row_after6 (StableHlo.after hostOps1 (W4 m ρ c))).trans ?_
  rw [arg3_after5 (W4 m ρ c)]
  exact Cert.HostBetween.row64_eq _
/-- The second bias as one row, at region 2's entry. -/
theorem row_at9 (c : Dev nD) :
    (W9 m ρ c (Proc.devRef .tc main_v47) : FVec F S1x32 .f32) = Cert.Stages.asRow32 (W7 m ρ c (Proc.devRef .tc main_arg5)) := by
  refine (row_after9 (StableHlo.after hostOps2 (W7 m ρ c))).trans ?_
  rw [arg5_after8 (W7 m ρ c)]
  exact Cert.HostBetween.row32_eq _

end Cert.HostRows

end
-- ==== Proof.HostAggregate2.lean ====
/-
  Between regions 1 and 2 the program fetches region 1's rows at the sources (its own fetch, `takeRows32`), scales each
  edge's row by the edge's normalisation, and sums the rows by destination.
-/
import proofs.«407844_j89343909692103_2_alg».proof.Proof.Gen.KernelIdeal.Frame
import proofs.«407844_j89343909692103_2_alg».proof.Proof.Stages
import proofs.«407844_j89343909692103_2_alg».proof.Proof.TakeRows
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.HostAggregate2

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The two operation lists, from any contents -/

/-- Contents moved to a buffer's own type and back are the contents. -/
theorem ofBuf_toBuf {sg : RefSig} {T : BufTy} {Val : EltTy → Type} (x : StableHlo.TRef sg T) (v : T.Contents Val) :
    x.ofBuf (x.toBuf v) = v := by
  obtain ⟨r, h, h1, h2⟩ := x
  subst h
  rfl

/-- The first list is the row fetch: from any contents it leaves at its result the rows of the table at the ids, each id
    read NumPy-style, the row kept where the wrapped id lies in the table and a fill value elsewhere. -/
theorem take_after (V : Valuation τ sig (Elt F)) :
    (StableHlo.after hostOps2 V (Proc.devRef .tc main_v40) : FVec F S1700000x32 .f32)
      = Cert.TakeRows.takeRows32 (F := F) (V (Proc.devRef .tc main_v39)) (V (Proc.devRef .tc main_v5)) := by
  -- the two operands read and the result written are at their buffers' own types
  have e5 : (StableHlo.TRef.of main_v5 : StableHlo.TRef sig ⟨S1700000, .i32⟩).ofBuf (V (Proc.devRef .tc main_v5))
      = (V (Proc.devRef .tc main_v5) : IVec S1700000 32) := rfl
  have e39 : (StableHlo.TRef.of main_v39 : StableHlo.TRef sig ⟨S100000x32, .f32⟩).ofBuf (V (Proc.devRef .tc main_v39))
      = (V (Proc.devRef .tc main_v39) : FVec F S100000x32 .f32) := rfl
  have e40 : ∀ v, @Eq (FVec F S1700000x32 .f32)
      ((StableHlo.TRef.of main_v40 : StableHlo.TRef sig ⟨S1700000x32, .f32⟩).toBuf (Val := Elt F) v) v := fun v => rfl
  after_results_simp
  simp only [ofBuf_toBuf, e5, e39, e40]
  unfold Cert.TakeRows.takeRows32 Cert.TakeRows.inTable Cert.TakeRows.wrappedCol
  rfl

/-- The first list writes neither the destinations nor the normalisation. -/
theorem dst_after (V : Valuation τ sig (Elt F)) :
    StableHlo.after hostOps2 V (Proc.devRef .tc main_v6) = V (Proc.devRef .tc main_v6) := by
  after_results_simp
theorem norm_after (V : Valuation τ sig (Elt F)) :
    StableHlo.after hostOps2 V (Proc.devRef .tc main_v29) = V (Proc.devRef .tc main_v29) := by
  after_results_simp

/-- The second list, from any contents: each fetched row scaled by its edge's normalisation, the rows summed by
    destination. -/
theorem scatter_after (V : Valuation τ sig (Elt F)) :
    (StableHlo.after hostOps2_1 V (Proc.devRef .tc main_v46) : FVec F S100000x32 .f32)
      = Cert.Stages.scatterScaled32 (F := F) (V (Proc.devRef .tc main_v6)) (V (Proc.devRef .tc main_v29))
          (V (Proc.devRef .tc main_v40)) := by
  after_results
  unfold Cert.Stages.scatterScaled32
  rfl

/-- The aggregated second layer, at region 2's entry. -/
theorem agg_at9 (c : Dev nD) :
    (W9 m ρ c (Proc.devRef .tc main_v46) : FVec F S100000x32 .f32)
      = Cert.Stages.scatterScaled32 (F := F) (W7 m ρ c (Proc.devRef .tc main_v6)) (W7 m ρ c (Proc.devRef .tc main_v29))
          (Cert.TakeRows.takeRows32 (F := F) (W7 m ρ c (Proc.devRef .tc main_v39)) (W7 m ρ c (Proc.devRef .tc main_v5))) := by
  refine (scatter_after (StableHlo.after hostOps2 (W7 m ρ c))).trans ?_
  rw [dst_after, norm_after, take_after]

end Cert.HostAggregate2

end
-- ==== Proof.KernelValue.lean ====
/-
  The idealized kernel's result as a function of its argument arrays. Walking the buffer contents back from the end of
  the run: the last region adds the second bias row to the aggregated second layer; that aggregate sums, by destination,
  the normalised rows of the second dense product fetched at the sources; the second dense product is region 1's,
  `max (a + bias row, 0) · W2` of the aggregated first layer `a`; and `a` is built the same way from region 0's dense
  product `x · W1`. Sources, destinations and normalisation are computed once, before the first region, and nothing
  later writes them. Where every source is a node id, the program's own row fetch is the plain clamped fetch, and the
  whole composition is the reference's `output`.
-/
import proofs.«407844_j89343909692103_2_alg».proof.Proof.Gen.KernelIdeal.Frame
import proofs.«407844_j89343909692103_2_alg».proof.Proof.Stages
import proofs.«407844_j89343909692103_2_alg».proof.Proof.TakeRows
import proofs.«407844_j89343909692103_2_alg».proof.Proof.RegionMatmul0
import proofs.«407844_j89343909692103_2_alg».proof.Proof.RegionFused1
import proofs.«407844_j89343909692103_2_alg».proof.Proof.RegionBias2
import proofs.«407844_j89343909692103_2_alg».proof.Proof.HostBefore
import proofs.«407844_j89343909692103_2_alg».proof.Proof.HostBetween
import proofs.«407844_j89343909692103_2_alg».proof.Proof.HostKeeps
import proofs.«407844_j89343909692103_2_alg».proof.Proof.HostRows
import proofs.«407844_j89343909692103_2_alg».proof.Proof.HostAggregate2

set_option maxRecDepth 16384

noncomputable section

namespace Cert.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array at the end of the run is the reference's `output` of the argument arrays, where every source is a
    node id. -/
theorem value (c : Dev nD)
    (hsrc : Cert.TakeRows.InRange (Cert.Stages.src (m ((c : Thread nD τ).loc main_arg1)))) :
    (W10 (F := Ideal) m ρ c (Proc.devRef .tc main_v48) : FVec Ideal S100000x32 .f32)
      = Cert.Stages.output (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- a region writes only its own arrays: everything else it leaves as it found it
  have k7_v5 : W7 (F := Ideal) m ρ c (Proc.devRef .tc main_v5) = W6 m ρ c (Proc.devRef .tc main_v5) := W7_of_ne m ρ c main_v5 (by decide)
  have k7_v6 : W7 (F := Ideal) m ρ c (Proc.devRef .tc main_v6) = W6 m ρ c (Proc.devRef .tc main_v6) := W7_of_ne m ρ c main_v6 (by decide)
  have k7_v29 : W7 (F := Ideal) m ρ c (Proc.devRef .tc main_v29) = W6 m ρ c (Proc.devRef .tc main_v29) := W7_of_ne m ρ c main_v29 (by decide)
  have k7_arg5 : W7 (F := Ideal) m ρ c (Proc.devRef .tc main_arg5) = W6 m ρ c (Proc.devRef .tc main_arg5) := W7_of_ne m ρ c main_arg5 (by decide)
  have k4_v5 : W4 (F := Ideal) m ρ c (Proc.devRef .tc main_v5) = W3 m ρ c (Proc.devRef .tc main_v5) := W4_of_ne m ρ c main_v5 (by decide)
  have k4_v6 : W4 (F := Ideal) m ρ c (Proc.devRef .tc main_v6) = W3 m ρ c (Proc.devRef .tc main_v6) := W4_of_ne m ρ c main_v6 (by decide)
  have k4_v29 : W4 (F := Ideal) m ρ c (Proc.devRef .tc main_v29) = W3 m ρ c (Proc.devRef .tc main_v29) := W4_of_ne m ρ c main_v29 (by decide)
  have k4_arg3 : W4 (F := Ideal) m ρ c (Proc.devRef .tc main_arg3) = W3 m ρ c (Proc.devRef .tc main_arg3) := W4_of_ne m ρ c main_arg3 (by decide)
  have k4_arg4 : W4 (F := Ideal) m ρ c (Proc.devRef .tc main_arg4) = W3 m ρ c (Proc.devRef .tc main_arg4) := W4_of_ne m ρ c main_arg4 (by decide)
  have k4_arg5 : W4 (F := Ideal) m ρ c (Proc.devRef .tc main_arg5) = W3 m ρ c (Proc.devRef .tc main_arg5) := W4_of_ne m ρ c main_arg5 (by decide)
  -- the second layer, from the end of the run back to region 1's exit
  rw [Cert.RegionBias2.value m ρ c, Cert.HostAggregate2.agg_at9 m ρ c, Cert.HostRows.row_at9 m ρ c,
    k7_v5, k7_v6, k7_v29, k7_arg5,
    Cert.HostKeeps.keep6_v5 m ρ c, Cert.HostKeeps.keep6_v6 m ρ c, Cert.HostKeeps.keep6_v29 m ρ c, Cert.HostKeeps.keep6_arg5 m ρ c,
    k4_v5, k4_v6, k4_v29, k4_arg5,
    Cert.HostBefore.src_at3 m ρ c, Cert.HostBefore.dst_at3 m ρ c, Cert.HostBefore.norm_at3 m ρ c, Cert.HostBefore.arg5_at3 m ρ c]
  -- the first layer, from region 1 back to the arguments
  rw [Cert.RegionFused1.value m ρ c, Cert.HostBetween.agg_at6 m ρ c, Cert.HostRows.row_at6 m ρ c, Cert.HostKeeps.keep6_arg4 m ρ c,
    k4_v5, k4_v6, k4_v29, k4_arg3, k4_arg4,
    Cert.HostBefore.src_at3 m ρ c, Cert.HostBefore.dst_at3 m ρ c, Cert.HostBefore.norm_at3 m ρ c,
    Cert.HostBefore.arg3_at3 m ρ c, Cert.HostBefore.arg4_at3 m ρ c,
    Cert.RegionMatmul0.value m ρ c, Cert.HostBefore.arg0_at3 m ρ c, Cert.HostBefore.arg2_at3 m ρ c]
  -- every source is a node id: the program's row fetch is the plain clamped fetch
  rw [Cert.TakeRows.takeRows32_eq _ _ hsrc, Cert.TakeRows.takeRows64_eq _ _ hsrc]
  rfl

end Cert.KernelValue

end
-- ==== Proof.IndexRange.lean ====
/-
  From the precondition to the range of the sources. The precondition says every entry of the edge list is a node id:
  at least 0 and below 100000 as a signed 32-bit word. The sources are the edge list's first row followed by
  0, 1, …, 99999, so every source is a node id too.
-/
import proofs.«407844_j89343909692103_2_alg».proof.Defs
import proofs.«407844_j89343909692103_2_alg».proof.Proof.Gen.KernelIdeal
import proofs.«407844_j89343909692103_2_alg».proof.Proof.Gen.Pre_finite_inputs
import proofs.«407844_j89343909692103_2_alg».proof.Proof.Stages
import proofs.«407844_j89343909692103_2_alg».proof.Proof.TakeRows
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.IndexRange

open Cert.KernelIdeal Cert.KernelIdeal.Gen
open Idealize.ShloMosaic Idealize.ShloMosaic.TcCoe Idealize.SL.Sem

/-- A 32-bit word that is at least 0 and below 100000 as a signed number is below 100000 as an unsigned one: its sign
    bit is clear, so the two readings agree. -/
theorem toNat_lt_of_signed (w : BitVec 32) (h0 : IntOp.cmpi .sge w 0#32 = 1#1) (h1 : IntOp.cmpi .slt w 100000#32 = 1#1) :
    w.toNat < 100000 := by
  have hw : w.toNat < 2 ^ 31 := by
    by_contra hge
    have hm : w.msb = true := by
      rw [BitVec.msb_eq_decide]; simp only [decide_eq_true_eq]; omega
    have hneg : w.toInt < 0 := BitVec.toInt_neg_iff.2 (by omega)
    unfold IntOp.cmpi at h0
    rw [StableHlo.Predicate.ofBool_eq_one_iff] at h0
    simp only [BitVec.sle, decide_eq_true_eq] at h0
    have e0 : (0#32 : BitVec 32).toInt = 0 := by decide
    omega
  have hc : (100000#32 : BitVec 32).toNat < 2 ^ 31 := by decide
  have := (StableHlo.Predicate.slt_iff_toNat hw hc).1 h1
  have e1 : (100000#32 : BitVec 32).toNat = 100000 := by decide
  omega

/-- The precondition, read at one entry of the edge list: the entry is at least 0 and below 100000, signed. -/
theorem pre_entry (m : (ℓ : Loc nD τ sig) → Buf (Elt Ideal) ℓ) (hpre : Cert.Pre_KernelIdeal m) (c : Dev nD)
    (j : Cert.Pre_finite_inputs.S2x1600000.Idx) :
    IntOp.cmpi .sge (m ((c : Thread nD τ).loc main_arg1) j) 0#32 = 1#1
      ∧ IntOp.cmpi .slt (m ((c : Thread nD τ).loc main_arg1) j) 100000#32 = 1#1 := by
  haveI : Subsingleton Cert.Pre_finite_inputs.S_.Idx := ⟨fun a b => funext fun d => d.elim0⟩
  have e := congrFun (hpre c) ValueIdx.ix0
  simp only [Cert.Pre_finite_inputs.fn, Cert.Pre_finite_inputs.fn_part1] at e
  change IntOp.andi (IntOp.andi _ _) _ = 1#1 at e
  obtain ⟨e1, e30⟩ := IntOp.andi_eq_one.1 e
  obtain ⟨-, e26⟩ := IntOp.andi_eq_one.1 e1
  exact ⟨Host.reduce_andi_all _ _ _ _ _ e26 j, Host.reduce_andi_all _ _ _ _ _ e30 j⟩

/-- Under the precondition every source (an edge's first endpoint, or a self loop's node) is a node id. -/
theorem src_inRange (m : (ℓ : Loc nD τ sig) → Buf (Elt Ideal) ℓ) (hpre : Cert.Pre_KernelIdeal m) (c : Dev nD) :
    Cert.TakeRows.InRange (Cert.Stages.src (m ((c : Thread nD τ).loc main_arg1))) := by
  -- an index below 1600000 reads an entry of the edge list's first row, which the precondition bounds; an index from
  -- 1600000 on reads the self loop's node, its position among 0, …, 99999
  intro k
  have hk : (k 0).val < 1700000 := (k 0).isLt
  unfold Cert.Stages.src
  by_cases hlt : (k 0).val < 1600000
  · -- the first piece: an entry of the edge list
    rw [concatenate_pair_apply_left (s₁ := Cert.ReferenceIdeal.S1600000) (s₂ := Cert.ReferenceIdeal.S100000)
      (0 : Fin 1) _ _ _ k rfl (ValueIdx.ix1 (n := 1600000) ⟨(k 0).val, hlt⟩) (fun b => match b with | ⟨0, _⟩ => rfl)]
    obtain ⟨h0, h1⟩ := pre_entry m hpre c _
    exact toNat_lt_of_signed _ h0 h1
  · -- the second piece: the position, below 100000
    have hp : (k 0).val - 1600000 < 100000 := by omega
    rw [concatenate_pair_apply_right (s₁ := Cert.ReferenceIdeal.S1600000) (s₂ := Cert.ReferenceIdeal.S100000)
      (0 : Fin 1) _ _ _ k rfl rfl (ValueIdx.ix1 (n := 100000) ⟨(k 0).val - 1600000, hp⟩)
      (fun b hb => absurd (Subsingleton.elim (α := Fin 1) _ _) hb)
      (by show ((k 0).val - 1600000) + 1600000 = (k 0).val; omega)]
    show (BitVec.ofNat 32 ((k 0).val - 1600000)).toNat < 100000
    rw [BitVec.toNat_ofNat, Nat.mod_eq_of_lt (by omega)]
    exact hp

end Cert.IndexRange

end
-- ==== Proof.lean ====
/-
  The certificate of a two-layer graph convolution (n = 100000 nodes, 1600000 edges plus one self loop per node):

      output = A (max (A (x · W1) + b1, 0) · W2) + b2,

  where A h sums into row k, over the edges e with destination k, the row of h at e's source scaled by
  d(src e)^(-1/2) · d(dst e)^(-1/2), d the in-degree with the self loop counted.

  The kernel's program computes the normalisation once, runs the two dense products (the second fused with the bias
  and the maximum) and the last bias as three kernel regions over twenty blocks of 5000 rows, and does the row fetches
  and the sums by destination between them; the reference does each layer with whole-array operations. Over the
  extended reals a block-by-block product is the whole product and a change of float format is the identity, so the two
  differ in one place only: the kernel's program fetches a row at a source id by a fetch that REPLACES the row by a fill
  value when the id, read NumPy-style, falls outside the table, where the reference's fetch clamps the id into the table.
  The precondition says every entry of the edge list is a node id (at least 0, below 100000); then every source is one,
  the test always passes, and both programs end at `Cert.Stages.output` of their arguments.

  Frames: the two kernels' are the generated frame certificates; the reference's is its run with the result dropped.
  There is no rewrite between the kernel and its idealization, so that claim is `True`.
-/
import proofs.«407844_j89343909692103_2_alg».proof.Defs
import proofs.«407844_j89343909692103_2_alg».proof.Proof.Gen.Kernel
import proofs.«407844_j89343909692103_2_alg».proof.Proof.Gen.Kernel.Skeleton
import proofs.«407844_j89343909692103_2_alg».proof.Proof.Gen.Kernel.Launch
import proofs.«407844_j89343909692103_2_alg».proof.Proof.Gen.Kernel.Points
import proofs.«407844_j89343909692103_2_alg».proof.Proof.Gen.Kernel.Frame
import proofs.«407844_j89343909692103_2_alg».proof.Proof.Gen.KernelIdeal
import proofs.«407844_j89343909692103_2_alg».proof.Proof.Gen.KernelIdeal.Skeleton
import proofs.«407844_j89343909692103_2_alg».proof.Proof.Gen.KernelIdeal.Launch
import proofs.«407844_j89343909692103_2_alg».proof.Proof.Gen.KernelIdeal.Points
import proofs.«407844_j89343909692103_2_alg».proof.Proof.Gen.KernelIdeal.Frame
import proofs.«407844_j89343909692103_2_alg».proof.Proof.Gen.ReferenceIdeal
import proofs.«407844_j89343909692103_2_alg».proof.Proof.ReferenceRun
import proofs.«407844_j89343909692103_2_alg».proof.Proof.Gen.Pre_finite_inputs
import proofs.«407844_j89343909692103_2_alg».proof.Proof.Stages
import proofs.«407844_j89343909692103_2_alg».proof.Proof.KernelRun
import proofs.«407844_j89343909692103_2_alg».proof.Proof.KernelValue
import proofs.«407844_j89343909692103_2_alg».proof.Proof.IndexRange
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame certificate. -/
theorem frame_kernel : Cert.frame_Kernel := fun m ρ _ => Cert.Kernel.Gen.frame m ρ
/-- The same for its idealization. -/
theorem frame_kernelIdeal : Cert.frame_KernelIdeal := fun m ρ _ => Cert.KernelIdeal.Gen.frame m ρ
/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- From memories agreeing on the arguments, under the precondition, both programs end at `output` of the arguments:
    the kernel's by its run and `Cert.KernelValue.value` (every source a node id, by the precondition), the reference's
    by its run and `Cert.Stages.res_out0_eq`. -/
theorem algebraic : Cert.algebraic_KernelIdeal_ReferenceIdeal := by
  intro m ρ m' ρ' hpre hagree
  refine ⟨fun c => Cert.Stages.output (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelValue.value m ρ c (Cert.IndexRange.src_inRange m hpre c)), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RunValue.run (F := Ideal) m' ρ')
    refine (Cert.Stages.res_out0_eq (F := Ideal) m' c).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
